-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S5532x256 : Shape := ⟨2, ![5532, 256]⟩
abbrev S5000x256 : Shape := ⟨2, ![5000, 256]⟩
abbrev S10532 : Shape := ⟨1, ![10532]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_
  bcast_S_S5532x256 : S_.BroadcastsInDim S5532x256 (![] : Fin 0 → Fin S5532x256.rank)
  reducesTo_S5532x256_S_d0_1 : S5532x256.ReducesTo [0, 1] S_
  bcast_S_S5000x256 : S_.BroadcastsInDim S5000x256 (![] : Fin 0 → Fin S5000x256.rank)
  reducesTo_S5000x256_S_d0_1 : S5000x256.ReducesTo [0, 1] S_
  bcast_S_S10532 : S_.BroadcastsInDim S10532 (![] : Fin 0 → Fin S10532.rank)
  reducesTo_S10532_S_d0 : S10532.ReducesTo [0] S_

variable [Facts]

def fn_part1 {F : FTy → Type} [FloatOps F] (main_arg1 : IVec S8192 32) (main_arg5 : FVec F S10532 .f32) (main_v13 : IVec S_ 1) (main_v16 : IVec S5000x256 1) : IVec S_ 1 :=
  let main_c_5 : IVec S_ 1 := constantI S_ 1 1#1
  let main_v17 : IVec S_ 1 := (fun x v => Host.reduce IntOp.andi x v reducesTo_S5000x256_S_d0_1 h_S_) main_v16 main_c_5
  let main_v18 : IVec S_ 1 := andi main_v13 main_v17
  let main_v19 : FVec F S10532 .f32 := Host.absf main_arg5
  let main_cst_6 : FVec F S_ .f32 := constant S_ .f32 0x7F800000#32
  let main_v20 : FVec F S10532 .f32 := broadcastInDim S10532 ![] bcast_S_S10532 main_cst_6
  let main_v21 : IVec S10532 1 := cmpf .olt main_v19 main_v20
  let main_c_7 : IVec S_ 1 := constantI S_ 1 1#1
  let main_v22 : IVec S_ 1 := (fun x v => Host.reduce IntOp.andi x v reducesTo_S10532_S_d0 h_S_) main_v21 main_c_7
  let main_v23 : IVec S_ 1 := andi main_v18 main_v22
  let main_c_8 : IVec S_ 32 := constantI S_ 32 0#32
  let main_v24 : IVec S8192 32 := broadcastInDim S8192 ![] bcast_S_S8192 main_c_8
  let main_v25 : IVec S8192 1 := cmpi .sge main_arg1 main_v24
  let main_c_9 : IVec S_ 32 := constantI S_ 32 10532#32
  let main_v26 : IVec S8192 32 := broadcastInDim S8192 ![] bcast_S_S8192 main_c_9
  let main_v27 : IVec S8192 1 := cmpi .slt main_arg1 main_v26
  let main_v28 : IVec S8192 1 := andi main_v25 main_v27
  let main_c_10 : IVec S_ 1 := constantI S_ 1 1#1
  let main_v29 : IVec S_ 1 := (fun x v => Host.reduce IntOp.andi x v reducesTo_S8192_S_d0 h_S_) main_v28 main_c_10
  let main_v30 : IVec S_ 1 := andi main_v23 main_v29
  main_v30

def fn {F : FTy → Type} [FloatOps F] (main_arg0 : FVec F S8192x256 .f32) (main_arg1 : IVec S8192 32) (main_arg2 : FVec F S8192 .f32) (main_arg3 : FVec F S5532x256 .f32) (main_arg4 : FVec F S5000x256 .f32) (main_arg5 : FVec F S10532 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S5532x256 .f32 := Host.absf main_arg3
  let main_cst_2 : FVec F S_ .f32 := constant S_ .f32 0x7F800000#32
  let main_v10 : FVec F S5532x256 .f32 := broadcastInDim S5532x256 ![] bcast_S_S5532x256 main_cst_2
  let main_v11 : IVec S5532x256 1 := cmpf .olt main_v9 main_v10
  let main_c_3 : IVec S_ 1 := constantI S_ 1 1#1
  let main_v12 : IVec S_ 1 := (fun x v => Host.reduce IntOp.andi x v reducesTo_S5532x256_S_d0_1 h_S_) main_v11 main_c_3
  let main_v13 : IVec S_ 1 := andi main_v8 main_v12
  let main_v14 : FVec F S5000x256 .f32 := Host.absf main_arg4
  let main_cst_4 : FVec F S_ .f32 := constant S_ .f32 0x7F800000#32
  let main_v15 : FVec F S5000x256 .f32 := broadcastInDim S5000x256 ![] bcast_S_S5000x256 main_cst_4
  let main_v16 : IVec S5000x256 1 := cmpf .olt main_v14 main_v15
  fn_part1 (F := F) main_arg1 main_arg5 main_v13 main_v16
-- ==== Kernel.lean ====
abbrev S8192x256 : Shape := ⟨2, ![8192, 256]⟩
abbrev S8192 : Shape := ⟨1, ![8192]⟩
abbrev S5532x256 : Shape := ⟨2, ![5532, 256]⟩
abbrev S5000x256 : Shape := ⟨2, ![5000, 256]⟩
abbrev S10532 : Shape := ⟨1, ![10532]⟩
abbrev S10532x256 : Shape := ⟨2, ![10532, 256]⟩
abbrev S_ : Shape := ⟨0, ![]⟩
abbrev S10532x1 : Shape := ⟨2, ![10532, 1]⟩
abbrev S11264x256 : Shape := ⟨2, ![11264, 256]⟩
abbrev S256x11264 : Shape := ⟨2, ![256, 11264]⟩
abbrev S8192x1 : Shape := ⟨2, ![8192, 1]⟩
abbrev S8192x2 : Shape := ⟨2, ![8192, 2]⟩
abbrev S1024x256 : Shape := ⟨2, ![1024, 256]⟩
abbrev S1024x1 : Shape := ⟨2, ![1024, 1]⟩
abbrev S1024x2 : Shape := ⟨2, ![1024, 2]⟩
abbrev S256x1408 : Shape := ⟨2, ![256, 1408]⟩
abbrev S1024x1408 : Shape := ⟨2, ![1024, 1408]⟩
abbrev S1024 : Shape := ⟨1, ![1024]⟩

abbrev nBuf : Space → Nat
  | .hbm => 31
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .f32⟩
  | .hbm, ⟨3, _⟩ => ⟨S5532x256, .f32⟩
  | .hbm, ⟨4, _⟩ => ⟨S5000x256, .f32⟩
  | .hbm, ⟨5, _⟩ => ⟨S10532, .f32⟩
  | .hbm, ⟨6, _⟩ => ⟨S10532x256, .f32⟩
  | .hbm, ⟨7, _⟩ => ⟨S_, .f32⟩
  | .hbm, ⟨8, _⟩ => ⟨S10532, .f32⟩
  | .hbm, ⟨9, _⟩ => ⟨S10532, .f32⟩
  | .hbm, ⟨10, _⟩ => ⟨S10532x1, .f32⟩
  | .hbm, ⟨11, _⟩ => ⟨S10532x256, .f32⟩
  | .hbm, ⟨12, _⟩ => ⟨S10532x256, .f32⟩
  | .hbm, ⟨13, _⟩ => ⟨S_, .i32⟩
  | .hbm, ⟨14, _⟩ => ⟨S_, .f32⟩
  | .hbm, ⟨15, _⟩ => ⟨S11264x256, .f32⟩
  | .hbm, ⟨16, _⟩ => ⟨S256x11264, .f32⟩
  | .hbm, ⟨17, _⟩ => ⟨S256x11264, .bf16⟩
  | .hbm, ⟨18, _⟩ => ⟨S8192x1, .i32⟩
  | .hbm, ⟨19, _⟩ => ⟨S8192x2, .f32⟩
  | .hbm, ⟨20, _⟩ => ⟨S8192x1, .f32⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S8192x1, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S256x11264, .bf16⟩
  | .local _ .vmem, ⟨3, _⟩ => ⟨S1024x1, .i32⟩
  | .local _ .vmem, ⟨4, _⟩ => ⟨S1024x1, .i32⟩
  | .local _ .vmem, ⟨5, _⟩ => ⟨S1024x2, .f32⟩
  | .local _ .vmem, ⟨6, _⟩ => ⟨S1024x2, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x11264 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S5532x256_S5000x256_S10532x256_d0 : Shape.Concatenates [S5532x256, S5000x256] S10532x256 0
  bcast_S_S10532 : S_.BroadcastsInDim S10532 (![] : Fin 0 → Fin S10532.rank)
  bcast_S10532_S10532x1_0 : S10532.BroadcastsInDim S10532x1 (![0] : Fin 1 → Fin S10532x1.rank)
  bcast_S10532x1_S10532x256_0_1 : S10532x1.BroadcastsInDim S10532x256 (![0, 1] : Fin 2 → Fin S10532x256.rank)
  pads_S10532x256_S11264x256_07320_000 : S10532x256.Pads (![0, 0] : Fin 2 → Nat) ![732, 0] ![0, 0] S11264x256
  h_S_ : 0 < S_.numel
  transposes_S11264x256_S256x11264_1_0 : S11264x256.Transposes [1, 0] S256x11264
  bitsLt_bf16_f32 : FTy.bits .bf16 < FTy.bits .f32
  shapeCasts_S8192_S8192x1 : S8192.ShapeCasts S8192x1
  inb_S1024x256_S1024x256_0_0 : ∀ a, (![0, 0] : Fin 2 → Nat) a + S1024x256.size a ≤ S1024x256.size a
  h_S1024x256 : 0 < S1024x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S256x11264_S256x1408_0_0 : ∀ a, (![0, 0] : Fin 2 → Nat) a + S256x1408.size a ≤ S256x11264.size a
  h_S256x1408 : 0 < S256x1408.numel
  shapeCasts_S256x1408_S256x1408 : S256x1408.ShapeCasts S256x1408
  iota_S1024x1408_d1_w32 : S1024x1408.Iotas .tc 32 [1]
  reduces_S1024x1408_S1024 : S1024x1408.Reduces [1] S1024
  shapeCasts_S1024_S1024x1 : S1024.ShapeCasts S1024x1
  broadcasts_S1024x1_S1024x1408 : S1024x1.Broadcasts S1024x1408
  inb_S256x11264_S256x1408_0_1408 : ∀ a, (![0, 1408] : Fin 2 → Nat) a + S256x1408.size a ≤ S256x11264.size a
  inb_S256x11264_S256x1408_0_2816 : ∀ a, (![0, 2816] : Fin 2 → Nat) a + S256x1408.size a ≤ S256x11264.size a
  inb_S256x11264_S256x1408_0_4224 : ∀ a, (![0, 4224] : Fin 2 → Nat) a + S256x1408.size a ≤ S256x11264.size a
  inb_S256x11264_S256x1408_0_5632 : ∀ a, (![0, 5632] : Fin 2 → Nat) a + S256x1408.size a ≤ S256x11264.size a
  inb_S256x11264_S256x1408_0_7040 : ∀ a, (![0, 7040] : Fin 2 → Nat) a + S256x1408.size a ≤ S256x11264.size a
  inb_S256x11264_S256x1408_0_8448 : ∀ a, (![0, 8448] : Fin 2 → Nat) a + S256x1408.size a ≤ S256x11264.size a
  inb_S256x11264_S256x1408_0_9856 : ∀ a, (![0, 9856] : Fin 2 → Nat) a + S256x1408.size a ≤ S256x11264.size a
  natLt_1_32 : 1 < 32
  concatenates_S1024x1_S1024x1_S1024x2_d1 : Shape.Concatenates [S1024x1, S1024x1] S1024x2 1
  inb_S1024x2_S1024x2_0_0 : ∀ a, (![0, 0] : Fin 2 → Nat) a + S1024x2.size a ≤ S1024x2.size a
  h_S1024x2 : 0 < S1024x2.numel
  slices_S8192x2_S8192x1_0_0 : S8192x2.Slices ![0, 0] S8192x1
  shapeCasts_S8192x1_S8192 : S8192x1.ShapeCasts S8192
  reducesTo_S8192_S_d0 : S8192.ReducesTo [0] S_
  slices_S8192x2_S8192x1_0_1 : S8192x2.Slices ![0, 1] S8192x1
  dot_S1024x256_S256x1408_S1024x1408_1_0_0_1_n_n_wf : DotDims.WF S1024x256 S256x1408 S1024x1408 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x11264.size a ≤ S256x11264.size a
  hwx0_1 : ∀ i : grid0.Coords, EltTy.bits .bf16 = 32 ∨ (Rect.block (s := S256x11264) S256x11264.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2.size a ≤ S8192x2.size a
  hwx0_3 : ∀ i : grid0.Coords, EltTy.bits .f32 = 32 ∨ (Rect.block (s := S8192x2) S1024x2.size (cc0_transform_3 i) (hinb0_3 i)).WholeWords (EltTy.packing .f32)

variable [Facts₀]

def dot_S1024x256_S256x1408_S1024x1408_1_0_0_1_n_n : DotDims S1024x256 S256x1408 S1024x1408 where
  lhsContracting := [1]
  rhsContracting := [0]
  lhsNonContracting := [0]
  rhsNonContracting := [1]
  lhsBatch := []
  rhsBatch := []
  wf := dot_S1024x256_S256x1408_S1024x1408_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x11264.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S5532x256 : Shape := ⟨2, ![5532, 256]⟩
abbrev S5000x256 : Shape := ⟨2, ![5000, 256]⟩
abbrev S10532 : Shape := ⟨1, ![10532]⟩
abbrev S10532x256 : Shape := ⟨2, ![10532, 256]⟩
abbrev S256x10532 : Shape := ⟨2, ![256, 10532]⟩
abbrev S8192x10532 : Shape := ⟨2, ![8192, 10532]⟩
abbrev S1x10532 : Shape := ⟨2, ![1, 10532]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .f32⟩
  | .hbm, ⟨3, _⟩ => ⟨S5532x256, .f32⟩
  | .hbm, ⟨4, _⟩ => ⟨S5000x256, .f32⟩
  | .hbm, ⟨5, _⟩ => ⟨S10532, .f32⟩
  | .hbm, ⟨6, _⟩ => ⟨S10532x256, .f32⟩
  | .hbm, ⟨7, _⟩ => ⟨S256x10532, .f32⟩
  | .hbm, ⟨8, _⟩ => ⟨S8192x10532, .f32⟩
  | .hbm, ⟨9, _⟩ => ⟨S1x10532, .f32⟩
  | .hbm, ⟨10, _⟩ => ⟨S8192x10532, .f32⟩
  | .hbm, ⟨11, _⟩ => ⟨S8192x10532, .f32⟩
  | .hbm, ⟨12, _⟩ => ⟨S_, .f32⟩
  | .hbm, ⟨13, _⟩ => ⟨S8192x10532, .f32⟩
  | .hbm, ⟨14, _⟩ => ⟨S8192x10532, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x10532, .f32⟩
  | .hbm, ⟨22, _⟩ => ⟨S8192x10532, .f32⟩
  | .hbm, ⟨23, _⟩ => ⟨S8192x10532, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S8192x10532, .f32⟩
  | .hbm, ⟨29, _⟩ => ⟨S8192x10532, .f32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i1⟩
  | .hbm, ⟨41, _⟩ => ⟨S_, .i32⟩
  | .hbm, ⟨42, _⟩ => ⟨S8192x1, .i32⟩
  | .hbm, ⟨43, _⟩ => ⟨S8192x1, .i32⟩
  | .hbm, ⟨44, _⟩ => ⟨S8192x1, .i32⟩
  | .hbm, ⟨45, _⟩ => ⟨S8192x1x1, .i32⟩
  | .hbm, ⟨46, _⟩ => ⟨S1, .i32⟩
  | .hbm, ⟨47, _⟩ => ⟨S_, .i32⟩
  | .hbm, ⟨48, _⟩ => ⟨S8192x1x1, .i32⟩
  | .hbm, ⟨49, _⟩ => ⟨S8192x1x1, .i1⟩
  | .hbm, ⟨50, _⟩ => ⟨S1x1x1, .i32⟩
  | .hbm, ⟨51, _⟩ => ⟨S8192x1x1, .i32⟩
  | .hbm, ⟨52, _⟩ => ⟨S8192x1x1, .i1⟩
  | .hbm, ⟨53, _⟩ => ⟨S8192x1x1, .i1⟩
  | .hbm, ⟨54, _⟩ => ⟨S_, .i1⟩
  | .hbm, ⟨55, _⟩ => ⟨S8192x1, .i1⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S_, .f32⟩
  | .hbm, ⟨73, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v8 : Ref sig .tc := ⟨.hbm, 29, rfl⟩
abbrev main_c : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_v11 : Ref sig .tc := ⟨.hbm, 36, rfl⟩
abbrev main_v12 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_cst : Ref sig .tc := ⟨.hbm, 57, rfl⟩
abbrev main_call2_v14 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_1 : Ref sig .tc := ⟨.hbm, 63, rfl⟩
abbrev main_v17 : Ref sig .tc := ⟨.hbm, 64, rfl⟩
abbrev main_cst_2 : Ref sig .tc := ⟨.hbm, 65, rfl⟩
abbrev main_v18 : Ref sig .tc := ⟨.hbm, 66, rfl⟩
abbrev main_cst_3 : Ref sig .tc := ⟨.hbm, 67, rfl⟩
abbrev main_call3_v0 : Ref sig .tc := ⟨.hbm, 68, rfl⟩
abbrev main_call3_v1 : Ref sig .tc := ⟨.hbm, 69, rfl⟩
abbrev main_v19 : Ref sig .tc := ⟨.hbm, 70, rfl⟩
abbrev main_cst_4 : Ref sig .tc := ⟨.hbm, 71, rfl⟩
abbrev main_v20 : Ref sig .tc := ⟨.hbm, 72, rfl⟩
abbrev main_v21 : Ref sig .tc := ⟨.hbm, 73, rfl⟩

abbrev nD : Nat := 1
abbrev τ : Topo := Topo.v7x

variable {F : FTy → Type} [FloatOps F]

class Facts₀ : Prop where
  concatenates_S5532x256_S5000x256_S10532x256_d0 : Shape.Concatenates [S5532x256, S5000x256] S10532x256 0
  transposes_S10532x256_S256x10532_1_0 : S10532x256.Transposes [1, 0] S256x10532
  bcast_S10532_S1x10532_1 : S10532.BroadcastsInDim S1x10532 (![1] : Fin 1 → Fin S1x10532.rank)
  bcast_S1x10532_S8192x10532_0_1 : S1x10532.BroadcastsInDim S8192x10532 (![0, 1] : Fin 2 → Fin S8192x10532.rank)
  bcast_S_S8192x10532 : S_.BroadcastsInDim S8192x10532 (![] : Fin 0 → Fin S8192x10532.rank)
  reducesTo_S8192x10532_S8192_d1 : S8192x10532.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10532_0_1 : S8192x1.BroadcastsInDim S8192x10532 (![0, 1] : Fin 2 → Fin S8192x10532.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x256_S256x10532_S8192x10532_1_0_0_1_n_n_wf : DotDims.WF S8192x256 S256x10532 S8192x10532 [1] [0] [0] [1] [] []
  gather_S8192x10532_S8192x1x1_S8192x1_n_1_0_0_1_2_11_wf : GatherDims.WF S8192x10532 S8192x1x1 S8192x1 [] [1] [0] [1] [0] 2 ![1, 1]

variable [Facts₀]

def dot_S8192x256_S256x10532_S8192x10532_1_0_0_1_n_n : DotDims S8192x256 S256x10532 S8192x10532 where
  lhsContracting := [1]
  rhsContracting := [0]
  lhsNonContracting := [0]
  rhsNonContracting := [1]
  lhsBatch := []
  rhsBatch := []
  wf := dot_S8192x256_S256x10532_S8192x10532_1_0_0_1_n_n_wf
def gather_S8192x10532_S8192x1x1_S8192x1_n_1_0_0_1_2_11 : GatherDims S8192x10532 S8192x1x1 S8192x1 where
  offsetDims := []
  collapsedSliceDims := [1]
  operandBatchingDims := [0]
  startIndicesBatchingDims := [0]
  startIndexMap := [1]
  indexVectorDim := 2
  sliceSizes := ![1, 1]
  wf := gather_S8192x10532_S8192x1x1_S8192x1_n_1_0_0_1_2_11_wf

class Facts : Prop extends Facts₀ where

variable [Facts]
-- ==== Proof.Spec.lean ====
/-
  The row mathematics of the OIM loss, free of any program: one query row q (256 features) against the
  class bank, whose transposed, reliability-scaled and zero-padded form bt (256 x 11264) the kernel reads
  in 8 column tiles of 1408, and whose plain form the reference reads whole (10532 classes).

  Kernel side, per row: the log of the sum of exponentials of all 11264 logits, the 732 padding columns
  sent to -∞ (so that each contributes exp(-∞) = 0), minus the logit at the label's column, picked by a
  one-hot comparison inside each tile; times the validity flag of the label.
  Reference side, per row: minus the log-softmax (shifted by the row maximum) at the label, where valid.
-/
import Idealize.ShloMosaic.PureOps.Ideal
import Idealize.ShloMosaic.Lib.ValueIdx

noncomputable section

namespace Cert.Oim

open Idealize.ShloMosaic

/-- Column j of class tile k on the padded class axis: 1408 k + j. -/
def col (k : Fin 8) (j : Fin 1408) : Fin 11264 :=
  ⟨1408 * k.val + j.val, by have := k.isLt; have := j.isLt; omega⟩

/-- The logits of the row against class tile k: ∑ d, q d · bt d (1408 k + j). -/
def tile (q : Fin 256 → EReal) (bt : Fin 256 → Fin 11264 → EReal) (k : Fin 8) : Fin 1408 → EReal :=
  fun j => ∑ d : Fin 256, q d * bt d (col k j)

/-- The last tile (columns 9856 …) with every column at or past 10532 sent to -∞. -/
def maskPad (y : Fin 1408 → EReal) : Fin 1408 → EReal :=
  fun j => Scalar.select (IntOp.cmpi .slt (IntOp.addi 9856#32 (BitVec.ofNat 32 j.val)) 10532#32) (y j) ⊥

/-- The sum of the exponentials of a tile's logits. -/
def expSum (y : Fin 1408 → EReal) : EReal := ∑ j : Fin 1408, Ideal.exp (y j)

/-- The tile's logit at the column whose number is the word t; zero if there is none. -/
def pick (y : Fin 1408 → EReal) (t : BitVec 32) : EReal :=
  ∑ j : Fin 1408, Scalar.select (IntOp.cmpi .eq (BitVec.ofNat 32 j.val) t) (y j) 0

/-- One where the label is not the ignore index 5554, else zero (the comparison's bit widened and read signed). -/
def validF (lab : BitVec 32) : EReal :=
  FloatOps.sitofp (F := Ideal) .f32 ((IntOp.cmpi .ne lab 5554#32).setWidth 32)

/-- log ∑ exp over the eight tiles, accumulated tile after tile from zero. -/
def rowLse (q : Fin 256 → EReal) (bt : Fin 256 → Fin 11264 → EReal) : EReal :=
  Ideal.log ((((((((0 + expSum (tile q bt 0)) + expSum (tile q bt 1)) + expSum (tile q bt 2)) + expSum (tile q bt 3))
    + expSum (tile q bt 4)) + expSum (tile q bt 5)) + expSum (tile q bt 6)) + expSum (maskPad (tile q bt 7)))

/-- The logit at the label's column: each tile's pick at (label − tile start), accumulated from zero. -/
def rowTgt (q : Fin 256 → EReal) (bt : Fin 256 → Fin 11264 → EReal) (lab : BitVec 32) : EReal :=
  (((((((0 + pick (tile q bt 0) (IntOp.subi lab 0#32)) + pick (tile q bt 1) (IntOp.subi lab 1408#32))
    + pick (tile q bt 2) (IntOp.subi lab 2816#32)) + pick (tile q bt 3) (IntOp.subi lab 4224#32))
    + pick (tile q bt 4) (IntOp.subi lab 5632#32)) + pick (tile q bt 5) (IntOp.subi lab 7040#32))
    + pick (tile q bt 6) (IntOp.subi lab 8448#32)) + pick (maskPad (tile q bt 7)) (IntOp.subi lab 9856#32)

/-- The two numbers the kernel writes for a row: (negative log-likelihood) · valid, and valid. -/
def rowOut (q : Fin 256 → EReal) (bt : Fin 256 → Fin 11264 → EReal) (lab : BitVec 32) : Fin 2 → EReal :=
  fun c => if c.val = 0 then (rowLse q bt - rowTgt q bt lab) * validF lab else validF lab

/-- The transposed bank the kernel is given: class l's row times (reliability l · 30), zero rows past 10532. -/
def bankT (bank : Fin 10532 → Fin 256 → EReal) (rel : Fin 10532 → EReal) : Fin 256 → Fin 11264 → EReal :=
  fun d l => if h : l.val < 10532 then bank ⟨l.val, h⟩ d * (rel ⟨l.val, h⟩ * Ideal.ofBits .f32 0x41F00000#32) else 0

/-! ## The reference's row -/

/-- The reference's logit of class l: ((∑ d, q d · bank l d) · reliability l) · 30. -/
def refLogit (q : Fin 256 → EReal) (bank : Fin 10532 → Fin 256 → EReal) (rel : Fin 10532 → EReal) (l : Fin 10532) : EReal :=
  ((∑ d : Fin 256, q d * bank l d) * rel l) * Ideal.ofBits .f32 0x41F00000#32

/-- The row maximum as the reference takes it: the fold of max from -∞, once more against -∞. -/
def refMax (x : Fin 10532 → EReal) : EReal := max ⊥ ((Finset.univ : Finset (Fin 10532)).fold max ⊥ x)

/-- log-softmax at class l: the shifted logit minus the log of the sum of the shifted exponentials. -/
def refLogp (x : Fin 10532 → EReal) (l : Fin 10532) : EReal :=
  (x l - refMax x) - Ideal.log (0 + ∑ l' : Fin 10532, Ideal.exp (x l' - refMax x))

/-- The label with the ignore index replaced by class 0. -/
def safeLab (lab : BitVec 32) : BitVec 32 := Scalar.select (IntOp.cmpi .ne lab 5554#32) lab 0#32

/-- The reference's summand of a row: minus the log-softmax at the (safe) label where the label is valid, else zero. -/
def refA (x : Fin 10532 → EReal) (lab : BitVec 32) (h : (safeLab lab).toNat < 10532) : EReal :=
  Scalar.select (IntOp.cmpi .ne lab 5554#32) (-(refLogp x ⟨(safeLab lab).toNat, h⟩)) 0

/-- The reference's validity flag of a row. -/
def refV (lab : BitVec 32) : EReal := FloatOps.uitofp (F := Ideal) .f32 (IntOp.cmpi .ne lab 5554#32)

end Cert.Oim

end
-- ==== Proof.RefRunLib.lean ====
/-
  Two small tools for reading a long straight line of host operations in stretches.
  The fold of a concatenation of operation lists is the fold of the second list from the fold of the first; and one
  tactic for a stretch's step: read the stretch's operations off the fold, rewrite what the stretch took over from
  the stretch before it by the hypotheses in scope, and close by unfolding the stage's definition.
-/
import Idealize.ShloMosaic.Lib.StableHlo.Run

namespace Idealize.ShloMosaic.StableHlo

variable {τ : Topo} {sig : RefSig} {Val : EltTy → Type}

/-- Running two lists of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- One buffer after a stretch: the stretch's operations read off the fold, the contents the stretch found
    rewritten by the equations in scope, the stage's definition unfolded. -/
macro "stage_step" : tactic =>
  `(tactic| (after_results; (try simp only [*]); (try rfl)))

/-- The same for a stretch inside an outlined function that reduces over a whole axis: the transports along a
    buffer's type equation (identities, the equation being rfl) are removed first, while the operands are still atoms,
    so that the closing comparison meets the reduction with equal heads and compares its operands, never its value. -/
macro "stage_step_cast" : tactic =>
  `(tactic| (after_results; (try dsimp only [TRef.toBuf, TRef.ofBuf, cast]); (try simp only [*]); (try rfl)))

end Idealize.ShloMosaic.StableHlo
-- ==== Proof.RefRun.lean ====
/-
  The reference's run, read stage by stage: every weakly fair execution of the reference's @main terminates with
  its result buffer at the last stage (the quotient of the two row sums, as a function of the argument arrays)
  and with the argument arrays unchanged. The run of a straight line of host operations ends with every buffer at
  the fold of the operations' results over the launch contents; the fold, cut into stretches, carries each buffer
  that is still read later at its stage, so the last table has the result at its stage and the arguments as launched.
-/
import proofs.«418249_j13116830122679_3_alg».proof.Proof.RefStages

noncomputable section

namespace Cert.ReferenceIdeal.Stages

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- On every device, for any float values: the reference terminates, its result is the last stage of the argument
    arrays, and the argument arrays end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = val_main_v21 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨h0, h1, h2, h3, h4, h5, hres⟩ := all_steps (F := F) (launchContents m c)
      exact ⟨(h c main_v21).trans hres, (h c main_arg0).trans h0, (h c main_arg1).trans h1, (h c main_arg2).trans h2,
        (h c main_arg3).trans h3, (h c main_arg4).trans h4, (h c main_arg5).trans h5⟩)
    (run_seq scopedRefs_eq scopedSems_eq defs main (fun _ => ops) main_eq (fun _ => ops_sub) m ρ)

end Cert.ReferenceIdeal.Stages

end
-- ==== Proof.PreDecode.lean ====
/-
  The printed precondition, read element by element. The function is a conjunction of six tests, each a
  reduction by "and" of a boolean array to one bit: five say |x| < +∞ of every entry of a float input, one says
  0 ≤ label < 10532 of every entry of the label input. When the conjunction is the bit 1, every reduced array is 1 at
  every index. An extended real whose absolute value max x (-x) lies strictly below ⊤ is neither ⊤ nor ⊥, hence the
  coercion of a real; a 32-bit word that is non-negative and below 10532 as a signed number has its unsigned value below 10532.
-/
import proofs.«418249_j13116830122679_3_alg».proof.Pre_finite_inputs
import Idealize.ShloMosaic.Lib.ReduceAll
import Idealize.ShloMosaic.Lib.ValueIdx
import Idealize.ShloMosaic.PureOps.Ideal.Laws

noncomputable section

namespace Cert.Pre_finite_inputs.Decode

open Idealize.ShloMosaic Cert.Pre_finite_inputs

/-- The rank-0 shape has one index. -/
instance : Subsingleton S_.Idx := ⟨fun a b => funext fun d => d.elim0⟩

/-- The pattern 0x7F800000 (sign 0, exponent all ones, fraction 0) denotes +∞. -/
theorem inf_bits : Ideal.ofBits .f32 0x7F800000#32 = (⊤ : EReal) := by simp [Ideal.ofBits, Ideal.ieee]

/-- An extended real whose absolute value is strictly below ⊤ is a real: ⊤ has |⊤| = ⊤ and ⊥ has |⊥| = max ⊥ ⊤ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One element of a test |x| < +∞: the comparison bit being 1 makes the entry a real. -/
theorem real_of_bit (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_bits] at h
  unfold Ideal.cmp at h
  refine real_of_abs_lt_top x ?_
  by_contra hn
  simp [hn] at h

/-- One test "every entry has |x| < +∞" over a whole array, of any shape: the reduction being 1 makes every entry a real. -/
theorem real_of_all {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (e : Host.reduce IntOp.andi (cmpf .olt (Host.absf x) (broadcastInDim s ![] hb (constant (F := Ideal) S_ .f32 0x7F800000#32)))
      init hr hu j = 1#1) (i : s.Idx) : ∃ r : ℝ, x i = (r : EReal) :=
  real_of_bit (x i) (Host.reduce_andi_all _ init hr hu j e i)

/-- A 32-bit word that is ≥ 0 and < 10532 as a signed number is below 10532 as an unsigned one. -/
theorem toNat_lt_of_bits (w : BitVec 32) (h : IntOp.andi (IntOp.cmpi .sge w 0#32) (IntOp.cmpi .slt w 10532#32) = 1#1) :
    w.toNat < 10532 := by
  obtain ⟨h0, h1⟩ := IntOp.andi_eq_one.1 h
  rw [IntOp.cmpi_sge] at h0
  rw [IntOp.cmpi_slt] at h1
  have e0 : (0#32 : BitVec 32).toInt = 0 := by decide
  have e1 : (10532#32 : BitVec 32).toInt = 10532 := by decide
  rw [e0] at h0
  rw [e1] at h1
  rw [BitVec.toInt_eq_toNat_cond] at h0 h1
  have hw := w.isLt
  split at h0 <;> omega

/-- The label test over the whole array: the reduction being 1 puts every label below 10532. -/
theorem label_of_all {axes : List (Fin S8192.rank)} (hb : S_.BroadcastsInDim S8192 (![] : Fin 0 → Fin S8192.rank))
    (hr : S8192.ReducesTo axes S_) (hu : 0 < S_.numel) (a : IVec S8192 32) (init : IVec S_ 1) (j : S_.Idx)
    (e : Host.reduce IntOp.andi
        (andi (cmpi .sge a (broadcastInDim S8192 ![] hb (constantI S_ 32 0#32)))
          (cmpi .slt a (broadcastInDim S8192 ![] hb (constantI S_ 32 10532#32))))
        init hr hu j = 1#1) (i : S8192.Idx) : (a i).toNat < 10532 :=
  toNat_lt_of_bits (a i) (Host.reduce_andi_all _ init hr hu j e i)

/-- The precondition decoded: the four float inputs the kernel reads are real at every entry and every label is below 10532. -/
theorem decode [Cert.Pre_finite_inputs.Facts] (a0 : FVec Ideal S8192x256 .f32) (a1 : IVec S8192 32) (a2 : FVec Ideal S8192 .f32)
    (a3 : FVec Ideal S5532x256 .f32) (a4 : FVec Ideal S5000x256 .f32) (a5 : FVec Ideal S10532 .f32)
    (h : Cert.Pre_finite_inputs.fn (F := Ideal) a0 a1 a2 a3 a4 a5 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, (a1 i).toNat < 10532) := by
  have h0 := congrFun h ValueIdx.ix0
  dsimp only [fn, fn_part1] at h0
  obtain ⟨h0, hlab⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h00, h2⟩ := IntOp.andi_eq_one.1 h0
  exact ⟨real_of_all _ _ _ a0 _ _ h00, real_of_all _ _ _ a3 _ _ h3, real_of_all _ _ _ a4 _ _ h4,
    real_of_all _ _ _ a5 _ _ h5, label_of_all _ _ _ a1 _ _ hlab⟩

end Cert.Pre_finite_inputs.Decode

end
-- ==== Proof.Payload.lean ====
/-
  The kernel body's stored block, read row by row at the ideal values.

  The body holds a 1024-row block of queries (256 features, rounded to bf16 for the products: the identity on the
  extended reals), the whole transposed class bank (256 x 11264, read in 8 column tiles of 1408) and the rows' labels.
  For each tile k it forms the logits  T_k(r, j) = ∑ d, q(r, d) · bank(d, 1408 k + j)  (a product into the zero
  accumulator: the plain sum over the contraction index), adds the lane sum of exp T_k to a running column that starts
  at zero, and adds the one-hot pick  ∑ j, [j = label − 1408 k] · T_k(r, j)  to a second running column. On the last
  tile every column at or past 10532 is first replaced by the named constant that denotes -∞, so those lanes add
  exp(-∞) = 0. The block it stores is  (log(sum of exponentials) − picked logit) · valid  beside  valid,  where valid is
  the bit of (label ≠ 5554) widened and converted.

  Here each of these steps is read at an index over explicit blocks: a lane reduction kept as a column is a sum over
  the 1408 lanes of the row; the lane iota at (r, j) is the word of j; a column broadcast along the lanes reads its own
  row; a load through the rectangle at column offset 1408 k reads the bank at column 1408 k + j; the two-column
  concatenation reads its first piece at column 0 and its second at column 1. The running columns are then exactly the
  specification's left-nested sums  (((0 + S_0) + S_1) + …) + S_7,  tile after tile, so no sum is reassociated and
  no law of the extended reals beyond  ofBits 0 = 0  is used.
-/
import proofs.«418249_j13116830122679_3_alg».proof.Proof.Spec
import proofs.«418249_j13116830122679_3_alg».proof.Proof.Gen.KernelIdeal.Frame
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Body

open Cert.KernelIdeal Cert.KernelIdeal.Gen Idealize.ShloMosaic Idealize.ShloMosaic.ValueIdx Cert.Oim

/-! ## The two constants -/

/-- The zero word is the extended real 0. -/
theorem zero_word : (Scalar.ofBits (F := Ideal) .f32 0x00000000#32 : EReal) = 0 := Ideal.ofBits_zero_f32

/-- The padding mask's named constant is -∞, by the certificate's table. -/
theorem neg_big : Named.named (F := Ideal) Cert.KernelIdeal.κ "neg_big" (φ := .f32) 0xFF333332#32 = (⊥ : EReal) :=
  IdealRules.named_const.ideal_named_scalar _ _ _ _ rfl

/-! ## Layout operations read at an index -/

/-- The lane iota at (r, j) is the word of j. -/
theorem iota_apply (h : S1024x1408.Iotas .tc 32 [1]) (r : Fin 1024) (j : Fin 1408) :
    iota .tc S1024x1408 32 [1] h (ix2 r j) = BitVec.ofNat 32 j.val :=
  iota_single_apply .tc S1024x1408 32 1 h (ix2 r j)

/-- A [1024,1] column broadcast along the lanes reads the column's row. -/
theorem bcol_apply {α : Type} (v : S1024x1.Idx → α) (h : S1024x1.Broadcasts S1024x1408) (r : Fin 1024) (j : Fin 1408) :
    broadcastTo S1024x1408 v h (ix2 r j) = v (ix2 r (0 : Fin 1)) :=
  broadcastTo_apply v h (ix2 r j) (ix2 r (0 : Fin 1)) (fun a => match a with
    | ⟨0, _⟩ => by show r.val = if (1024 : Nat) = 1 then 0 else r.val; rw [if_neg (by decide)]
    | ⟨1, _⟩ => by show 0 = if (1 : Nat) = 1 then 0 else j.val; rw [if_pos rfl])

/-- A lane sum kept as a [1024,1] column, read at row r: the sum over the 1408 lanes of that row. -/
theorem laneSum_apply (X : FVec Ideal S1024x1408 .f32) (hr : S1024x1408.Reduces [1] S1024) (hφ : FKind.Formats .f32)
    (hacc : (0x00000000#32 : BitVec 32) = 0x00000000#32) (hc : S1024.ShapeCasts S1024x1) (r : Fin 1024) :
    shapeCast S1024x1 (multiReduction (F := Ideal) .add [1] S1024 X 0x00000000#32 hr hφ hacc) hc (ix2 r (0 : Fin 1))
      = ∑ j : Fin 1408, X (ix2 r j) := by
  refine (shapeCast_apply _ hc (ix2 r (0 : Fin 1)) (ix1 r) ?_).trans ?_
  · rw [Shape.rowMajor_val_one, Shape.rowMajor_val_two]
    show r.val = r.val * 1 + 0
    omega
  · refine (Ideal.multiReduction_add_single X 0x00000000#32 hr hφ hacc (ix1 r)).trans ?_
    refine Finset.sum_congr rfl fun k _ => ?_
    refine congrArg X (funext fun a => Fin.ext ?_)
    match a with
    | ⟨0, _⟩ => rfl
    | ⟨1, _⟩ => rfl

/-! ## The product of a row block with a class tile -/

/-- The operand indices of the product at output index i and contraction index q, axis by axis: the left operand is read at
    (i 0, q), the right at (q, i 1). -/
theorem lhs_0 (i : S1024x1408.Idx) (q : dot_S1024x256_S256x1408_S1024x1408_1_0_0_1_n_n.contr.Idx) :
    (dot_S1024x256_S256x1408_S1024x1408_1_0_0_1_n_n.lhsIdx i q 0).val = (i 0).val := by
  unfold DotDims.lhsIdx
  rw [dif_neg (show ¬(0 : Fin S1024x256.rank) ∈ dot_S1024x256_S256x1408_S1024x1408_1_0_0_1_n_n.lhsBatch by decide), dif_pos (show (0 : Fin S1024x256.rank) ∈ dot_S1024x256_S256x1408_S1024x1408_1_0_0_1_n_n.lhsNonContracting by decide)]
  rfl
theorem lhs_1 (i : S1024x1408.Idx) (q : dot_S1024x256_S256x1408_S1024x1408_1_0_0_1_n_n.contr.Idx) :
    (dot_S1024x256_S256x1408_S1024x1408_1_0_0_1_n_n.lhsIdx i q 1).val = (q ⟨0, by decide⟩).val :=
  dot_S1024x256_S256x1408_S1024x1408_1_0_0_1_n_n.lhsIdx_val_of_single rfl i q
theorem rhs_0 (i : S1024x1408.Idx) (q : dot_S1024x256_S256x1408_S1024x1408_1_0_0_1_n_n.contr.Idx) :
    (dot_S1024x256_S256x1408_S1024x1408_1_0_0_1_n_n.rhsIdx i q 0).val = (q ⟨0, by decide⟩).val :=
  dot_S1024x256_S256x1408_S1024x1408_1_0_0_1_n_n.rhsIdx_val_of_single rfl i q
theorem rhs_1 (i : S1024x1408.Idx) (q : dot_S1024x256_S256x1408_S1024x1408_1_0_0_1_n_n.contr.Idx) :
    (dot_S1024x256_S256x1408_S1024x1408_1_0_0_1_n_n.rhsIdx i q 1).val = (i 1).val := by
  unfold DotDims.rhsIdx
  rw [dif_neg (show ¬(1 : Fin S256x1408.rank) ∈ dot_S1024x256_S256x1408_S1024x1408_1_0_0_1_n_n.rhsBatch by decide), dif_pos (show (1 : Fin S256x1408.rank) ∈ dot_S1024x256_S256x1408_S1024x1408_1_0_0_1_n_n.rhsNonContracting by decide)]
  rfl

/-- The product into the zero accumulator, read at (r, j): the contraction over the 256 features. -/
theorem mm_apply (lhs : FVec Ideal S1024x256 .bf16) (rhs : FVec Ideal S256x1408 .bf16) (hs : S256x1408.ShapeCasts S256x1408)
    (r : Fin 1024) (j : Fin 1408) :
    matmul dot_S1024x256_S256x1408_S1024x1408_1_0_0_1_n_n none lhs (shapeCast S256x1408 rhs hs) (constant (F := Ideal) S1024x1408 .f32 0x00000000#32) (ix2 r j)
      = ∑ d : Fin 256, lhs (ix2 r d) * rhs (ix2 d j) := by
  rw [shapeCast_self]
  refine (Ideal.matmul_constant_zero_apply _ _ lhs rhs (ix2 r j)).trans ?_
  rw [← Equiv.sum_comp (ValueIdx.contrEquiv1 dot_S1024x256_S256x1408_S1024x1408_1_0_0_1_n_n 256 rfl rfl).symm]
  refine Finset.sum_congr rfl fun k _ => ?_
  have hk := ValueIdx.contrEquiv1_symm_val dot_S1024x256_S256x1408_S1024x1408_1_0_0_1_n_n 256 rfl rfl k
  have el : dot_S1024x256_S256x1408_S1024x1408_1_0_0_1_n_n.lhsIdx (ix2 r j) ((ValueIdx.contrEquiv1 dot_S1024x256_S256x1408_S1024x1408_1_0_0_1_n_n 256 rfl rfl).symm k) = ix2 r k := funext fun a => Fin.ext (by
    match a with
    | ⟨0, _⟩ => exact lhs_0 _ _
    | ⟨1, _⟩ => exact (lhs_1 _ _).trans hk)
  have er : dot_S1024x256_S256x1408_S1024x1408_1_0_0_1_n_n.rhsIdx (ix2 r j) ((ValueIdx.contrEquiv1 dot_S1024x256_S256x1408_S1024x1408_1_0_0_1_n_n 256 rfl rfl).symm k) = ix2 k j := funext fun a => Fin.ext (by
    match a with
    | ⟨0, _⟩ => exact (rhs_0 _ _).trans hk
    | ⟨1, _⟩ => exact rhs_1 _ _)
  rw [el, er]

/-! ## A tile's two lane sums, the padding mask, and the stored pair of columns -/

/-- The lane sum of the exponentials of a tile, at row r. -/
theorem expSum_apply (T : FVec Ideal S1024x1408 .f32) (hr : S1024x1408.Reduces [1] S1024) (hφ : FKind.Formats .f32)
    (hacc : (0x00000000#32 : BitVec 32) = 0x00000000#32) (hc : S1024.ShapeCasts S1024x1) (r : Fin 1024) :
    shapeCast S1024x1 (multiReduction (F := Ideal) .add [1] S1024 (exp T) 0x00000000#32 hr hφ hacc) hc (ix2 r (0 : Fin 1))
      = expSum (fun j => T (ix2 r j)) :=
  laneSum_apply (exp T) hr hφ hacc hc r

/-- The one-hot pick of a tile at the column (label − tile start), at row r. -/
theorem pick_apply (io : IVec S1024x1408 32) (hio : ∀ (r : Fin 1024) (j : Fin 1408), io (ix2 r j) = BitVec.ofNat 32 j.val)
    (lab : IVec S1024x1 32) (c : BitVec 32) (T : FVec Ideal S1024x1408 .f32)
    (hb : S1024x1.Broadcasts S1024x1408) (hr : S1024x1408.Reduces [1] S1024) (hφ : FKind.Formats .f32)
    (hacc : (0x00000000#32 : BitVec 32) = 0x00000000#32) (hc : S1024.ShapeCasts S1024x1) (r : Fin 1024) :
    shapeCast S1024x1 (multiReduction (F := Ideal) .add [1] S1024
        (select (cmpi .eq io (broadcastTo S1024x1408 (subi lab (broadcast S1024x1 c)) hb)) T
          (broadcast S1024x1408 (Scalar.ofBits (F := Ideal) .f32 0x00000000#32)))
        0x00000000#32 hr hφ hacc) hc (ix2 r (0 : Fin 1))
      = pick (fun j => T (ix2 r j)) (IntOp.subi (lab (ix2 r (0 : Fin 1))) c) := by
  refine (laneSum_apply _ hr hφ hacc hc r).trans ?_
  refine Finset.sum_congr rfl fun j _ => ?_
  show Scalar.select (IntOp.cmpi .eq (io (ix2 r j)) (broadcastTo S1024x1408 (subi lab (broadcast S1024x1 c)) hb (ix2 r j)))
      (T (ix2 r j)) (Scalar.ofBits (F := Ideal) .f32 0x00000000#32)
    = Scalar.select (IntOp.cmpi .eq (BitVec.ofNat 32 j.val) (IntOp.subi (lab (ix2 r (0 : Fin 1))) c)) (T (ix2 r j)) 0
  rw [hio, bcol_apply, zero_word]
  rfl

/-- The padding mask on the last tile, at (r, j). -/
theorem mask_apply (io : IVec S1024x1408 32) (hio : ∀ (r : Fin 1024) (j : Fin 1408), io (ix2 r j) = BitVec.ofNat 32 j.val)
    (T : FVec Ideal S1024x1408 .f32) (r : Fin 1024) (j : Fin 1408) :
    select (cmpi .slt (addi (broadcast S1024x1408 9856#32) io) (broadcast S1024x1408 10532#32)) T
        (broadcast S1024x1408 (Named.named (F := Ideal) Cert.KernelIdeal.κ "neg_big" (φ := .f32) 0xFF333332#32)) (ix2 r j)
      = maskPad (fun j => T (ix2 r j)) j := by
  show Scalar.select (IntOp.cmpi .slt (IntOp.addi 9856#32 (io (ix2 r j))) 10532#32) (T (ix2 r j))
      (Named.named (F := Ideal) Cert.KernelIdeal.κ "neg_big" (φ := .f32) 0xFF333332#32)
    = Scalar.select (IntOp.cmpi .slt (IntOp.addi 9856#32 (BitVec.ofNat 32 j.val)) 10532#32) (T (ix2 r j)) ⊥
  rw [hio, neg_big]

/-- The two stored columns: (log-sum-exp − target logit) · valid beside valid. -/
theorem tail_apply (lse tgt : FVec Ideal S1024x1 .f32) (lab : IVec S1024x1 32) (hx : 1 < 32)
    (hcat : Shape.Concatenates [S1024x1, S1024x1] S1024x2 1) (p : Fin 1024) (c : Fin 2) :
    concatenate S1024x2 1
        [⟨S1024x1, mulf (subf (log lse) tgt) (sitofp (F := Ideal) .f32 (extui 32 (cmpi .ne lab (broadcast S1024x1 5554#32)) hx))⟩,
         ⟨S1024x1, sitofp (F := Ideal) .f32 (extui 32 (cmpi .ne lab (broadcast S1024x1 5554#32)) hx)⟩] hcat (ix2 p c)
      = if c.val = 0 then (Ideal.log (lse (ix2 p (0 : Fin 1))) - tgt (ix2 p (0 : Fin 1))) * validF (lab (ix2 p (0 : Fin 1)))
        else validF (lab (ix2 p (0 : Fin 1))) := by
  match c with
  | ⟨0, _⟩ =>
    rw [if_pos rfl]
    refine (concatenate_pair_apply_left (t := S1024x2) (s₁ := S1024x1) (s₂ := S1024x1) (1 : Fin 2) _ _ hcat (ix2 p (0 : Fin 2)) rfl (ix2 p (0 : Fin 1)) (fun b => ?_)).trans ?_
    · match b with
      | ⟨0, _⟩ => rfl
      | ⟨1, _⟩ => rfl
    · rfl
  | ⟨1, _⟩ =>
    rw [if_neg (Nat.succ_ne_zero 0)]
    refine (concatenate_pair_apply_right (t := S1024x2) (s₁ := S1024x1) (s₂ := S1024x1) (1 : Fin 2) _ _ hcat (ix2 p (1 : Fin 2)) rfl rfl (ix2 p (0 : Fin 1)) (fun b hb => ?_) ?_).trans ?_
    · match b with
      | ⟨0, _⟩ => rfl
      | ⟨1, _⟩ => exact absurd rfl hb
    · rfl
    · rfl

/-! ## The payloads, each read at an index over explicit blocks -/

/-- Rounding the query block to bf16 is the identity at the ideal values. -/
theorem pay2_apply (v0 : Vec Ideal S1024x256 .f32) (i : S1024x256.Idx) : k0_pay2 (F := Ideal) v0 i = v0 i := rfl

/-- The label column cast to its own shape is itself. -/
theorem pay3_apply (v2 : Vec Ideal S1024x1 .i32) (i : S1024x1.Idx) : k0_pay3 (F := Ideal) v2 i = v2 i :=
  congrFun (shapeCast_self v2 shapeCasts_S1024x1_S1024x1) i

/-- The seven full tiles' logits: each is the product of the query block with its class tile. -/
theorem pay4_apply (v0 : Vec Ideal S1024x256 .f32) (v6 : Vec Ideal S256x1408 .bf16) (r : Fin 1024) (j : Fin 1408) :
    k0_pay4 (F := Ideal) v0 v6 (ix2 r j) = ∑ d : Fin 256, v0 (ix2 r d) * v6 (ix2 d j) :=
  mm_apply (k0_pay2 (F := Ideal) v0) v6 shapeCasts_S256x1408_S256x1408 r j

theorem pay6_apply (v0 : Vec Ideal S1024x256 .f32) (v23 : Vec Ideal S256x1408 .bf16) (r : Fin 1024) (j : Fin 1408) :
    k0_pay6 (F := Ideal) v0 v23 (ix2 r j) = ∑ d : Fin 256, v0 (ix2 r d) * v23 (ix2 d j) :=
  mm_apply (k0_pay2 (F := Ideal) v0) v23 shapeCasts_S256x1408_S256x1408 r j

theorem pay9_apply (v1 : FVec Ideal S1024x256 .bf16) (v40 : Vec Ideal S256x1408 .bf16) (r : Fin 1024) (j : Fin 1408) :
    k0_pay9 (F := Ideal) v1 v40 (ix2 r j) = ∑ d : Fin 256, v1 (ix2 r d) * v40 (ix2 d j) :=
  mm_apply v1 v40 shapeCasts_S256x1408_S256x1408 r j

theorem pay10_apply (v1 : FVec Ideal S1024x256 .bf16) (v57 : Vec Ideal S256x1408 .bf16) (r : Fin 1024) (j : Fin 1408) :
    k0_pay10 (F := Ideal) v1 v57 (ix2 r j) = ∑ d : Fin 256, v1 (ix2 r d) * v57 (ix2 d j) :=
  mm_apply v1 v57 shapeCasts_S256x1408_S256x1408 r j

theorem pay13_apply (v1 : FVec Ideal S1024x256 .bf16) (v74 : Vec Ideal S256x1408 .bf16) (r : Fin 1024) (j : Fin 1408) :
    k0_pay13 (F := Ideal) v1 v74 (ix2 r j) = ∑ d : Fin 256, v1 (ix2 r d) * v74 (ix2 d j) :=
  mm_apply v1 v74 shapeCasts_S256x1408_S256x1408 r j

theorem pay15_apply (v1 : FVec Ideal S1024x256 .bf16) (v91 : Vec Ideal S256x1408 .bf16) (r : Fin 1024) (j : Fin 1408) :
    k0_pay15 (F := Ideal) v1 v91 (ix2 r j) = ∑ d : Fin 256, v1 (ix2 r d) * v91 (ix2 d j) :=
  mm_apply v1 v91 shapeCasts_S256x1408_S256x1408 r j

theorem pay17_apply (v1 : FVec Ideal S1024x256 .bf16) (v108 : Vec Ideal S256x1408 .bf16) (r : Fin 1024) (j : Fin 1408) :
    k0_pay17 (F := Ideal) v1 v108 (ix2 r j) = ∑ d : Fin 256, v1 (ix2 r d) * v108 (ix2 d j) :=
  mm_apply v1 v108 shapeCasts_S256x1408_S256x1408 r j

/-- The body's lane iota. -/
abbrev lanes : IVec S1024x1408 32 := iota .tc S1024x1408 32 [1] iota_S1024x1408_d1_w32

/-- It reads the word of the lane's number. -/
theorem lanes_apply (r : Fin 1024) (j : Fin 1408) : lanes (ix2 r j) = BitVec.ofNat 32 j.val :=
  iota_apply iota_S1024x1408_d1_w32 r j

/-- The running columns, each from the columns before it: a sum of exponentials joins by `expSum`, a one-hot pick by `pick`
    at the label less the tile's first column. -/
theorem pay5_apply (v0 : Vec Ideal S1024x256 .f32) (v2 : Vec Ideal S1024x1 .i32) (v6 : Vec Ideal S256x1408 .bf16) (r : Fin 1024) :
    k0_pay5 (F := Ideal) v0 v2 v6 (ix2 r (0 : Fin 1))
      = 0 + pick (fun j => k0_pay4 (F := Ideal) v0 v6 (ix2 r j)) (IntOp.subi (v2 (ix2 r (0 : Fin 1))) 0#32) := by
  have h := pick_apply lanes lanes_apply (k0_pay3 (F := Ideal) v2) 0#32 (k0_pay4 (F := Ideal) v0 v6)
    broadcasts_S1024x1_S1024x1408 reduces_S1024x1408_S1024 (.inl rfl) rfl shapeCasts_S1024_S1024x1 r
  rw [pay3_apply] at h
  exact congrArg₂ (· + ·) zero_word h

theorem pay7_apply (v0 : Vec Ideal S1024x256 .f32) (v6 v23 : Vec Ideal S256x1408 .bf16) (r : Fin 1024) :
    k0_pay7 (F := Ideal) v0 v6 v23 (ix2 r (0 : Fin 1))
      = (0 + expSum (fun j => k0_pay4 (F := Ideal) v0 v6 (ix2 r j))) + expSum (fun j => k0_pay6 (F := Ideal) v0 v23 (ix2 r j)) :=
  congrArg₂ (· + ·)
    (congrArg₂ (· + ·) zero_word
      (expSum_apply (k0_pay4 (F := Ideal) v0 v6) reduces_S1024x1408_S1024 (.inl rfl) rfl shapeCasts_S1024_S1024x1 r))
    (expSum_apply (k0_pay6 (F := Ideal) v0 v23) reduces_S1024x1408_S1024 (.inl rfl) rfl shapeCasts_S1024_S1024x1 r)

theorem pay8_apply (v0 : Vec Ideal S1024x256 .f32) (v2 : Vec Ideal S1024x1 .i32) (v23 : Vec Ideal S256x1408 .bf16) (r : Fin 1024) :
    k0_pay8 (F := Ideal) v0 v2 v23 (ix2 r (0 : Fin 1))
      = pick (fun j => k0_pay6 (F := Ideal) v0 v23 (ix2 r j)) (IntOp.subi (v2 (ix2 r (0 : Fin 1))) 1408#32) := by
  have h := pick_apply lanes lanes_apply (k0_pay3 (F := Ideal) v2) 1408#32 (k0_pay6 (F := Ideal) v0 v23)
    broadcasts_S1024x1_S1024x1408 reduces_S1024x1408_S1024 (.inl rfl) rfl shapeCasts_S1024_S1024x1 r
  rw [pay3_apply] at h
  exact h

theorem pay11_apply (v1 : FVec Ideal S1024x256 .bf16) (v30 : FVec Ideal S1024x1 .f32) (v40 v57 : Vec Ideal S256x1408 .bf16) (r : Fin 1024) :
    k0_pay11 (F := Ideal) v1 v30 v40 v57 (ix2 r (0 : Fin 1))
      = (v30 (ix2 r (0 : Fin 1)) + expSum (fun j => k0_pay9 (F := Ideal) v1 v40 (ix2 r j)))
        + expSum (fun j => k0_pay10 (F := Ideal) v1 v57 (ix2 r j)) :=
  congrArg₂ (· + ·)
    (congrArg (v30 (ix2 r (0 : Fin 1)) + ·)
      (expSum_apply (k0_pay9 (F := Ideal) v1 v40) reduces_S1024x1408_S1024 (.inl rfl) rfl shapeCasts_S1024_S1024x1 r))
    (expSum_apply (k0_pay10 (F := Ideal) v1 v57) reduces_S1024x1408_S1024 (.inl rfl) rfl shapeCasts_S1024_S1024x1 r)

theorem pay12_apply (v1 : FVec Ideal S1024x256 .bf16) (v3 : IVec S1024x1 32) (v22 v38 : FVec Ideal S1024x1 .f32)
    (v40 v57 : Vec Ideal S256x1408 .bf16) (r : Fin 1024) :
    k0_pay12 (F := Ideal) v1 v3 v22 v38 v40 v57 (ix2 r (0 : Fin 1))
      = ((v22 (ix2 r (0 : Fin 1)) + v38 (ix2 r (0 : Fin 1)))
          + pick (fun j => k0_pay9 (F := Ideal) v1 v40 (ix2 r j)) (IntOp.subi (v3 (ix2 r (0 : Fin 1))) 2816#32))
        + pick (fun j => k0_pay10 (F := Ideal) v1 v57 (ix2 r j)) (IntOp.subi (v3 (ix2 r (0 : Fin 1))) 4224#32) :=
  congrArg₂ (· + ·)
    (congrArg ((v22 (ix2 r (0 : Fin 1)) + v38 (ix2 r (0 : Fin 1))) + ·)
      (pick_apply lanes lanes_apply v3 2816#32 (k0_pay9 (F := Ideal) v1 v40)
        broadcasts_S1024x1_S1024x1408 reduces_S1024x1408_S1024 (.inl rfl) rfl shapeCasts_S1024_S1024x1 r))
    (pick_apply lanes lanes_apply v3 4224#32 (k0_pay10 (F := Ideal) v1 v57)
      broadcasts_S1024x1_S1024x1408 reduces_S1024x1408_S1024 (.inl rfl) rfl shapeCasts_S1024_S1024x1 r)

theorem pay14_apply (v1 : FVec Ideal S1024x256 .bf16) (v74 : Vec Ideal S256x1408 .bf16) (r : Fin 1024) :
    k0_pay14 (F := Ideal) v1 v74 (ix2 r (0 : Fin 1)) = expSum (fun j => k0_pay13 (F := Ideal) v1 v74 (ix2 r j)) :=
  expSum_apply (k0_pay13 (F := Ideal) v1 v74) reduces_S1024x1408_S1024 (.inl rfl) rfl shapeCasts_S1024_S1024x1 r

theorem pay16_apply (v1 : FVec Ideal S1024x256 .bf16) (v3 : IVec S1024x1 32) (v73 : FVec Ideal S1024x1 .f32)
    (v76 : FVec Ideal S1024x1408 .f32) (v91 : Vec Ideal S256x1408 .bf16) (r : Fin 1024) :
    k0_pay16 (F := Ideal) v1 v3 v73 v76 lanes v91 (ix2 r (0 : Fin 1))
      = (v73 (ix2 r (0 : Fin 1)) + pick (fun j => v76 (ix2 r j)) (IntOp.subi (v3 (ix2 r (0 : Fin 1))) 5632#32))
        + pick (fun j => k0_pay15 (F := Ideal) v1 v91 (ix2 r j)) (IntOp.subi (v3 (ix2 r (0 : Fin 1))) 7040#32) :=
  congrArg₂ (· + ·)
    (congrArg (v73 (ix2 r (0 : Fin 1)) + ·)
      (pick_apply lanes lanes_apply v3 5632#32 v76
        broadcasts_S1024x1_S1024x1408 reduces_S1024x1408_S1024 (.inl rfl) rfl shapeCasts_S1024_S1024x1 r))
    (pick_apply lanes lanes_apply v3 7040#32 (k0_pay15 (F := Ideal) v1 v91)
      broadcasts_S1024x1_S1024x1408 reduces_S1024x1408_S1024 (.inl rfl) rfl shapeCasts_S1024_S1024x1 r)

theorem pay18_apply (v1 : FVec Ideal S1024x256 .bf16) (v64 v80 : FVec Ideal S1024x1 .f32) (v91 v108 : Vec Ideal S256x1408 .bf16) (r : Fin 1024) :
    k0_pay18 (F := Ideal) v1 v64 v80 v91 v108 (ix2 r (0 : Fin 1))
      = ((v64 (ix2 r (0 : Fin 1)) + v80 (ix2 r (0 : Fin 1))) + expSum (fun j => k0_pay15 (F := Ideal) v1 v91 (ix2 r j)))
        + expSum (fun j => k0_pay17 (F := Ideal) v1 v108 (ix2 r j)) :=
  congrArg₂ (· + ·)
    (congrArg ((v64 (ix2 r (0 : Fin 1)) + v80 (ix2 r (0 : Fin 1))) + ·)
      (expSum_apply (k0_pay15 (F := Ideal) v1 v91) reduces_S1024x1408_S1024 (.inl rfl) rfl shapeCasts_S1024_S1024x1 r))
    (expSum_apply (k0_pay17 (F := Ideal) v1 v108) reduces_S1024x1408_S1024 (.inl rfl) rfl shapeCasts_S1024_S1024x1 r)

theorem pay19_apply (v1 : FVec Ideal S1024x256 .bf16) (v3 : IVec S1024x1 32) (v108 : Vec Ideal S256x1408 .bf16) (r : Fin 1024) :
    k0_pay19 (F := Ideal) v1 v3 v108 (ix2 r (0 : Fin 1))
      = pick (fun j => k0_pay17 (F := Ideal) v1 v108 (ix2 r j)) (IntOp.subi (v3 (ix2 r (0 : Fin 1))) 8448#32) :=
  pick_apply lanes lanes_apply v3 8448#32 (k0_pay17 (F := Ideal) v1 v108)
    broadcasts_S1024x1_S1024x1408 reduces_S1024x1408_S1024 (.inl rfl) rfl shapeCasts_S1024_S1024x1 r

/-! ## The last tile and the stored block -/

/-- The last tile's logits under the padding mask, as the body computes them from its blocks. -/
abbrev lastTile (v1 : FVec Ideal S1024x256 .bf16) (v125 : FVec Ideal S256x1408 .bf16) : FVec Ideal S1024x1408 .f32 :=
  select (cmpi .slt (addi (broadcast S1024x1408 9856#32) lanes) (broadcast S1024x1408 10532#32))
    (matmul dot_S1024x256_S256x1408_S1024x1408_1_0_0_1_n_n none v1 (shapeCast S256x1408 v125 shapeCasts_S256x1408_S256x1408)
      (constant (F := Ideal) S1024x1408 .f32 0x00000000#32))
    (broadcast S1024x1408 (Named.named (F := Ideal) Cert.KernelIdeal.κ "neg_big" (φ := .f32) 0xFF333332#32))

theorem lastTile_row (v1 : FVec Ideal S1024x256 .bf16) (v125 : FVec Ideal S256x1408 .bf16) (p : Fin 1024) :
    (fun j => lastTile v1 v125 (ix2 p j)) = maskPad (fun j => ∑ d : Fin 256, v1 (ix2 p d) * v125 (ix2 d j)) :=
  funext fun j => (mask_apply lanes lanes_apply _ p j).trans
    (congrArg (fun y => maskPad y j) (funext fun j' => mm_apply v1 v125 shapeCasts_S256x1408_S256x1408 p j'))

/-- The stored block at (p, c): the last tile joins the two running sums, then the logarithm, the difference, the flag. -/
theorem pay1_apply (v1 : FVec Ideal S1024x256 .bf16) (v3 : IVec S1024x1 32) (v107 v115 v123 : FVec Ideal S1024x1 .f32)
    (v125 : FVec Ideal S256x1408 .bf16) (p : Fin 1024) (c : Fin 2) :
    k0_pay1 (F := Ideal) v1 v3 v107 v115 v123 v125 (ix2 p c)
      = if c.val = 0 then
          (Ideal.log (v115 (ix2 p (0 : Fin 1)) + expSum (maskPad (fun j => ∑ d : Fin 256, v1 (ix2 p d) * v125 (ix2 d j))))
            - ((v107 (ix2 p (0 : Fin 1)) + v123 (ix2 p (0 : Fin 1)))
                + pick (maskPad (fun j => ∑ d : Fin 256, v1 (ix2 p d) * v125 (ix2 d j))) (IntOp.subi (v3 (ix2 p (0 : Fin 1))) 9856#32)))
          * validF (v3 (ix2 p (0 : Fin 1)))
        else validF (v3 (ix2 p (0 : Fin 1))) := by
  have hE := (expSum_apply (lastTile v1 v125) reduces_S1024x1408_S1024 (.inl rfl) rfl shapeCasts_S1024_S1024x1 p).trans
    (congrArg expSum (lastTile_row v1 v125 p))
  have hP := (pick_apply lanes lanes_apply v3 9856#32 (lastTile v1 v125)
    broadcasts_S1024x1_S1024x1408 reduces_S1024x1408_S1024 (.inl rfl) rfl shapeCasts_S1024_S1024x1 p).trans
    (congrArg (fun y => pick y (IntOp.subi (v3 (ix2 p (0 : Fin 1))) 9856#32)) (lastTile_row v1 v125 p))
  have hA := congrArg (v115 (ix2 p (0 : Fin 1)) + ·) hE
  have hB := congrArg ((v107 (ix2 p (0 : Fin 1)) + v123 (ix2 p (0 : Fin 1))) + ·) hP
  refine (tail_apply _ _ v3 natLt_1_32 concatenates_S1024x1_S1024x1_S1024x2_d1 p c).trans ?_
  exact congrArg₂ (fun A B => if c.val = 0 then (Ideal.log A - B) * validF (v3 (ix2 p (0 : Fin 1))) else validF (v3 (ix2 p (0 : Fin 1)))) hA hB

/-! ## The blocks the body loads -/

/-- The zero offsets, however spelt. -/
theorem hz2 : (![0, 0] : Fin 2 → Nat) = fun _ => 0 := funext fun a => match a with
  | ⟨0, _⟩ => rfl
  | ⟨1, _⟩ => rfl

/-- The query block is loaded whole. -/
theorem ld_query (x0 : Vec Ideal S1024x256 .f32) : View.ld x0 r0_0 = x0 :=
  View.ld_unit_zero (S := S1024x256) hz2 _ x0

/-- The label column is loaded whole. -/
theorem ld_label (x2 : Vec Ideal S1024x1 .i32) : View.ld x2 r0_1 = x2 :=
  View.ld_unit_zero (S := S1024x1) hz2 _ x2

/-- Class tile k of the bank block: the load at column offset 1408 k reads column 1408 k + j. -/
theorem ld_tile (x1 : Vec Ideal S256x11264 .bf16) (k : Fin 8) (o : Nat) (ho : o = 1408 * k.val)
    (inb : ∀ a, (![0, o] : Fin 2 → Nat) a + S256x1408.size a ≤ S256x11264.size a) (d : Fin 256) (j : Fin 1408) :
    View.ld x1 (Rect.unit (s := S256x11264) ![0, o] S256x1408.size inb) (ix2 d j) = x1 (ix2 d (col k j)) := by
  subst ho
  refine congrArg x1 (funext fun a => Fin.ext ?_)
  match a with
  | ⟨0, _⟩ => show 0 + 1 * d.val = d.val; omega
  | ⟨1, _⟩ => show 1408 * k.val + 1 * j.val = 1408 * k.val + j.val; omega

/-- A tile of products over loaded blocks is the specification's tile of the row. -/
theorem tile_of (x0 : Vec Ideal S1024x256 .f32) (x1 : Vec Ideal S256x11264 .bf16) (k : Fin 8)
    (lhs : FVec Ideal S1024x256 .bf16) (hl : ∀ (r : Fin 1024) (d : Fin 256), lhs (ix2 r d) = x0 (ix2 r d))
    (rhs : FVec Ideal S256x1408 .bf16) (hrh : ∀ (d : Fin 256) (j : Fin 1408), rhs (ix2 d j) = x1 (ix2 d (col k j)))
    (T : FVec Ideal S1024x1408 .f32) (hT : ∀ (r : Fin 1024) (j : Fin 1408), T (ix2 r j) = ∑ d : Fin 256, lhs (ix2 r d) * rhs (ix2 d j))
    (p : Fin 1024) :
    (fun j => T (ix2 p j)) = tile (fun d => x0 (ix2 p d)) (fun d l => x1 (ix2 d l)) k :=
  funext fun j => (hT p j).trans (Finset.sum_congr rfl fun d _ => by rw [hl, hrh])

section Row

variable (x0 : Vec Ideal S1024x256 .f32) (x1 : Vec Ideal S256x11264 .bf16) (x2 : Vec Ideal S1024x1 .i32) (p : Fin 1024)

/-- The query block as the products read it. -/
abbrev Q : FVec Ideal S1024x256 .bf16 := k0_pay2 (F := Ideal) (View.ld x0 r0_0)
/-- The label column as the picks read it. -/
abbrev Lab : IVec S1024x1 32 := k0_pay3 (F := Ideal) (View.ld x2 r0_1)

/-- Both read the loaded blocks themselves. -/
theorem Q_apply (r : Fin 1024) (d : Fin 256) : Q x0 (ix2 r d) = x0 (ix2 r d) := congrFun (ld_query x0) (ix2 r d)

theorem Lab_apply : Lab x2 (ix2 p (0 : Fin 1)) = x2 (ix2 p (0 : Fin 1)) :=
  (pay3_apply _ _).trans (congrFun (ld_label x2) _)

/-- Row p of each tile's logits is the specification's tile of the row. -/
theorem t0 : (fun j => k0_pay4 (F := Ideal) (View.ld x0 r0_0) (View.ld x1 r0_2) (ix2 p j))
    = tile (fun d => x0 (ix2 p d)) (fun d l => x1 (ix2 d l)) 0 :=
  tile_of x0 x1 0 (Q x0) (Q_apply x0) (View.ld x1 r0_2) (ld_tile x1 0 0 rfl _) _ (pay4_apply _ _) p

theorem t1 : (fun j => k0_pay6 (F := Ideal) (View.ld x0 r0_0) (View.ld x1 r0_3) (ix2 p j))
    = tile (fun d => x0 (ix2 p d)) (fun d l => x1 (ix2 d l)) 1 :=
  tile_of x0 x1 1 (Q x0) (Q_apply x0) (View.ld x1 r0_3) (ld_tile x1 1 1408 rfl _) _ (pay6_apply _ _) p

theorem t2 : (fun j => k0_pay9 (F := Ideal) (Q x0) (View.ld x1 r0_4) (ix2 p j))
    = tile (fun d => x0 (ix2 p d)) (fun d l => x1 (ix2 d l)) 2 :=
  tile_of x0 x1 2 (Q x0) (Q_apply x0) (View.ld x1 r0_4) (ld_tile x1 2 2816 rfl _) _ (pay9_apply _ _) p

theorem t3 : (fun j => k0_pay10 (F := Ideal) (Q x0) (View.ld x1 r0_5) (ix2 p j))
    = tile (fun d => x0 (ix2 p d)) (fun d l => x1 (ix2 d l)) 3 :=
  tile_of x0 x1 3 (Q x0) (Q_apply x0) (View.ld x1 r0_5) (ld_tile x1 3 4224 rfl _) _ (pay10_apply _ _) p

theorem t4 : (fun j => k0_pay13 (F := Ideal) (Q x0) (View.ld x1 r0_6) (ix2 p j))
    = tile (fun d => x0 (ix2 p d)) (fun d l => x1 (ix2 d l)) 4 :=
  tile_of x0 x1 4 (Q x0) (Q_apply x0) (View.ld x1 r0_6) (ld_tile x1 4 5632 rfl _) _ (pay13_apply _ _) p

theorem t5 : (fun j => k0_pay15 (F := Ideal) (Q x0) (View.ld x1 r0_7) (ix2 p j))
    = tile (fun d => x0 (ix2 p d)) (fun d l => x1 (ix2 d l)) 5 :=
  tile_of x0 x1 5 (Q x0) (Q_apply x0) (View.ld x1 r0_7) (ld_tile x1 5 7040 rfl _) _ (pay15_apply _ _) p

theorem t6 : (fun j => k0_pay17 (F := Ideal) (Q x0) (View.ld x1 r0_8) (ix2 p j))
    = tile (fun d => x0 (ix2 p d)) (fun d l => x1 (ix2 d l)) 6 :=
  tile_of x0 x1 6 (Q x0) (Q_apply x0) (View.ld x1 r0_8) (ld_tile x1 6 8448 rfl _) _ (pay17_apply _ _) p

theorem t7 : (fun j => ∑ d : Fin 256, Q x0 (ix2 p d) * View.ld x1 r0_9 (ix2 d j))
    = tile (fun d => x0 (ix2 p d)) (fun d l => x1 (ix2 d l)) 7 :=
  funext fun j => Finset.sum_congr rfl fun d _ => by rw [Q_apply, ld_tile x1 7 9856 rfl]

/-! ## The running sums, tile after tile -/

/-- After tiles 0 and 1: the sum of exponentials. -/
abbrev A30 : FVec Ideal S1024x1 .f32 := k0_pay7 (F := Ideal) (View.ld x0 r0_0) (View.ld x1 r0_2) (View.ld x1 r0_3)
/-- After tiles 0 to 3. -/
abbrev A64 : FVec Ideal S1024x1 .f32 := k0_pay11 (F := Ideal) (Q x0) (A30 x0 x1) (View.ld x1 r0_4) (View.ld x1 r0_5)
/-- Tile 4's own sum. -/
abbrev A80 : FVec Ideal S1024x1 .f32 := k0_pay14 (F := Ideal) (Q x0) (View.ld x1 r0_6)
/-- After tiles 0 to 6. -/
abbrev A115 : FVec Ideal S1024x1 .f32 := k0_pay18 (F := Ideal) (Q x0) (A64 x0 x1) (A80 x0 x1) (View.ld x1 r0_7) (View.ld x1 r0_8)

/-- Tile 0's pick on the zero column. -/
abbrev B22 : FVec Ideal S1024x1 .f32 := k0_pay5 (F := Ideal) (View.ld x0 r0_0) (View.ld x2 r0_1) (View.ld x1 r0_2)
/-- Tile 1's pick. -/
abbrev B38 : FVec Ideal S1024x1 .f32 := k0_pay8 (F := Ideal) (View.ld x0 r0_0) (View.ld x2 r0_1) (View.ld x1 r0_3)
/-- The picks of tiles 0 to 3. -/
abbrev B73 : FVec Ideal S1024x1 .f32 :=
  k0_pay12 (F := Ideal) (Q x0) (Lab x2) (B22 x0 x1 x2) (B38 x0 x1 x2) (View.ld x1 r0_4) (View.ld x1 r0_5)
/-- The picks of tiles 0 to 5. -/
abbrev B107 : FVec Ideal S1024x1 .f32 :=
  k0_pay16 (F := Ideal) (Q x0) (Lab x2) (B73 x0 x1 x2) (k0_pay13 (F := Ideal) (Q x0) (View.ld x1 r0_6)) lanes (View.ld x1 r0_7)
/-- Tile 6's pick. -/
abbrev B123 : FVec Ideal S1024x1 .f32 := k0_pay19 (F := Ideal) (Q x0) (Lab x2) (View.ld x1 r0_8)

/-- The sums of exponentials, accumulated from zero in the specification's order. -/
theorem a30 : A30 x0 x1 (ix2 p (0 : Fin 1))
    = (0 + expSum (tile (fun d => x0 (ix2 p d)) (fun d l => x1 (ix2 d l)) 0))
      + expSum (tile (fun d => x0 (ix2 p d)) (fun d l => x1 (ix2 d l)) 1) :=
  (pay7_apply _ _ _ p).trans
    (congrArg₂ (· + ·) (congrArg (0 + ·) (congrArg expSum (t0 x0 x1 p))) (congrArg expSum (t1 x0 x1 p)))

theorem a64 : A64 x0 x1 (ix2 p (0 : Fin 1))
    = (((0 + expSum (tile (fun d => x0 (ix2 p d)) (fun d l => x1 (ix2 d l)) 0))
      + expSum (tile (fun d => x0 (ix2 p d)) (fun d l => x1 (ix2 d l)) 1))
      + expSum (tile (fun d => x0 (ix2 p d)) (fun d l => x1 (ix2 d l)) 2))
      + expSum (tile (fun d => x0 (ix2 p d)) (fun d l => x1 (ix2 d l)) 3) :=
  (pay11_apply _ _ _ _ p).trans
    (congrArg₂ (· + ·) (congrArg₂ (· + ·) (a30 x0 x1 p) (congrArg expSum (t2 x0 x1 p))) (congrArg expSum (t3 x0 x1 p)))

theorem a80 : A80 x0 x1 (ix2 p (0 : Fin 1)) = expSum (tile (fun d => x0 (ix2 p d)) (fun d l => x1 (ix2 d l)) 4) :=
  (pay14_apply _ _ p).trans (congrArg expSum (t4 x0 x1 p))

theorem a115 : A115 x0 x1 (ix2 p (0 : Fin 1))
    = ((((((0 + expSum (tile (fun d => x0 (ix2 p d)) (fun d l => x1 (ix2 d l)) 0))
      + expSum (tile (fun d => x0 (ix2 p d)) (fun d l => x1 (ix2 d l)) 1))
      + expSum (tile (fun d => x0 (ix2 p d)) (fun d l => x1 (ix2 d l)) 2))
      + expSum (tile (fun d => x0 (ix2 p d)) (fun d l => x1 (ix2 d l)) 3))
      + expSum (tile (fun d => x0 (ix2 p d)) (fun d l => x1 (ix2 d l)) 4))
      + expSum (tile (fun d => x0 (ix2 p d)) (fun d l => x1 (ix2 d l)) 5))
      + expSum (tile (fun d => x0 (ix2 p d)) (fun d l => x1 (ix2 d l)) 6) :=
  (pay18_apply _ _ _ _ _ p).trans
    (congrArg₂ (· + ·)
      (congrArg₂ (· + ·) (congrArg₂ (· + ·) (a64 x0 x1 p) (a80 x0 x1 p)) (congrArg expSum (t5 x0 x1 p)))
      (congrArg expSum (t6 x0 x1 p)))

/-- The picks, accumulated from zero in the specification's order. -/
theorem b22 : B22 x0 x1 x2 (ix2 p (0 : Fin 1))
    = 0 + pick (tile (fun d => x0 (ix2 p d)) (fun d l => x1 (ix2 d l)) 0) (IntOp.subi (x2 (ix2 p (0 : Fin 1))) 0#32) :=
  (pay5_apply _ _ _ p).trans
    (congrArg (0 + ·) (congrArg₂ pick (t0 x0 x1 p) (congrArg (IntOp.subi · 0#32) (congrFun (ld_label x2) _))))

theorem b38 : B38 x0 x1 x2 (ix2 p (0 : Fin 1))
    = pick (tile (fun d => x0 (ix2 p d)) (fun d l => x1 (ix2 d l)) 1) (IntOp.subi (x2 (ix2 p (0 : Fin 1))) 1408#32) :=
  (pay8_apply _ _ _ p).trans
    (congrArg₂ pick (t1 x0 x1 p) (congrArg (IntOp.subi · 1408#32) (congrFun (ld_label x2) _)))

theorem b73 : B73 x0 x1 x2 (ix2 p (0 : Fin 1))
    = (((0 + pick (tile (fun d => x0 (ix2 p d)) (fun d l => x1 (ix2 d l)) 0) (IntOp.subi (x2 (ix2 p (0 : Fin 1))) 0#32))
      + pick (tile (fun d => x0 (ix2 p d)) (fun d l => x1 (ix2 d l)) 1) (IntOp.subi (x2 (ix2 p (0 : Fin 1))) 1408#32))
      + pick (tile (fun d => x0 (ix2 p d)) (fun d l => x1 (ix2 d l)) 2) (IntOp.subi (x2 (ix2 p (0 : Fin 1))) 2816#32))
      + pick (tile (fun d => x0 (ix2 p d)) (fun d l => x1 (ix2 d l)) 3) (IntOp.subi (x2 (ix2 p (0 : Fin 1))) 4224#32) :=
  (pay12_apply _ _ _ _ _ _ p).trans
    (congrArg₂ (· + ·)
      (congrArg₂ (· + ·) (congrArg₂ (· + ·) (b22 x0 x1 x2 p) (b38 x0 x1 x2 p))
        (congrArg₂ pick (t2 x0 x1 p) (congrArg (IntOp.subi · 2816#32) (Lab_apply x2 p))))
      (congrArg₂ pick (t3 x0 x1 p) (congrArg (IntOp.subi · 4224#32) (Lab_apply x2 p))))

theorem b107 : B107 x0 x1 x2 (ix2 p (0 : Fin 1))
    = (((((0 + pick (tile (fun d => x0 (ix2 p d)) (fun d l => x1 (ix2 d l)) 0) (IntOp.subi (x2 (ix2 p (0 : Fin 1))) 0#32))
      + pick (tile (fun d => x0 (ix2 p d)) (fun d l => x1 (ix2 d l)) 1) (IntOp.subi (x2 (ix2 p (0 : Fin 1))) 1408#32))
      + pick (tile (fun d => x0 (ix2 p d)) (fun d l => x1 (ix2 d l)) 2) (IntOp.subi (x2 (ix2 p (0 : Fin 1))) 2816#32))
      + pick (tile (fun d => x0 (ix2 p d)) (fun d l => x1 (ix2 d l)) 3) (IntOp.subi (x2 (ix2 p (0 : Fin 1))) 4224#32))
      + pick (tile (fun d => x0 (ix2 p d)) (fun d l => x1 (ix2 d l)) 4) (IntOp.subi (x2 (ix2 p (0 : Fin 1))) 5632#32))
      + pick (tile (fun d => x0 (ix2 p d)) (fun d l => x1 (ix2 d l)) 5) (IntOp.subi (x2 (ix2 p (0 : Fin 1))) 7040#32) :=
  (pay16_apply _ _ _ _ _ p).trans
    (congrArg₂ (· + ·)
      (congrArg₂ (· + ·) (b73 x0 x1 x2 p)
        (congrArg₂ pick (t4 x0 x1 p) (congrArg (IntOp.subi · 5632#32) (Lab_apply x2 p))))
      (congrArg₂ pick (t5 x0 x1 p) (congrArg (IntOp.subi · 7040#32) (Lab_apply x2 p))))

theorem b123 : B123 x0 x1 x2 (ix2 p (0 : Fin 1))
    = pick (tile (fun d => x0 (ix2 p d)) (fun d l => x1 (ix2 d l)) 6) (IntOp.subi (x2 (ix2 p (0 : Fin 1))) 8448#32) :=
  (pay19_apply _ _ _ p).trans
    (congrArg₂ pick (t6 x0 x1 p) (congrArg (IntOp.subi · 8448#32) (Lab_apply x2 p)))

end Row

/-- Row p of the block the body stores is the specification's row: the canon of the one whole-block store is its payload,
    whose running sums are the eight tiles' in order, the last under the padding mask. -/
theorem out_apply (x0 : Vec Ideal S1024x256 .f32) (x1 : Vec Ideal S256x11264 .bf16) (x2 : Vec Ideal S1024x1 .i32) (p : Fin 1024) (c : Fin 2) :
    Gen.out0_3 (F := Ideal) x0 x1 x2 (ix2 p c)
      = Cert.Oim.rowOut (fun d => x0 (ix2 p d)) (fun d l => x1 (ix2 d l)) (x2 (ix2 p (0 : Fin 1))) c := by
  unfold Gen.out0_3
  refine (congrFun (View.canon_unit_zero (S := S1024x2) hz2 _ _) (ix2 p c)).trans ?_
  refine (pay1_apply (Q x0) (Lab x2) (B107 x0 x1 x2) (A115 x0 x1) (B123 x0 x1 x2) (View.ld x1 r0_9) p c).trans ?_
  unfold rowOut rowLse rowTgt
  rw [a115 x0 x1 p, b107 x0 x1 x2 p, b123 x0 x1 x2 p, Lab_apply x2 p, t7 x0 x1 p]

end Cert.KernelIdeal.Body
-- ==== Proof.Blocks.lean ====
/-
  From the eight grid points' blocks to the whole [8192, 2] result array.

  Grid point t (of 8) holds rows 1024 t … 1024 t + 1023 of the query array and of the label column, the whole
  class bank, and writes rows 1024 t … 1024 t + 1023 of the result. Row by row the body's value is the row
  function `Cert.Oim.rowOut` of that row's features, the bank and that row's label (taken here as a hypothesis);
  so every point writes back ITS BLOCK OF ONE function `G` of the three arrays, the eight blocks tile the result,
  and the result array ends holding `G`.
-/
import proofs.«418249_j13116830122679_3_alg».proof.Proof.Spec
import proofs.«418249_j13116830122679_3_alg».proof.Proof.Gen.KernelIdeal.Frame
import Idealize.ShloMosaic.Lib.Pipeline.Value
import Idealize.ShloMosaic.Lib.ValueIdx

noncomputable section

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The result array as one function of the query array, the class bank and the label column: row r, column c is
    the row function of row r's 256 features, the bank, and row r's label, at c. -/
def G (X0 : Vec Ideal S8192x256 .f32) (X1 : Vec Ideal S256x11264 .bf16) (X2 : Vec Ideal S8192x1 .i32) : Vec Ideal S8192x2 .f32 :=
  fun i => Cert.Oim.rowOut (fun d => X0 (ix2 ⟨(i 0).val, idx2_lt0 i⟩ d)) (fun d l => X1 (ix2 d l)) (X2 (ix2 ⟨(i 0).val, idx2_lt0 i⟩ (0 : Fin 1))) ⟨(i 1).val, idx2_lt1 i⟩

/-- `G` at row r, column c, the index written by its coordinates. -/
theorem G_apply (X0 : Vec Ideal S8192x256 .f32) (X1 : Vec Ideal S256x11264 .bf16) (X2 : Vec Ideal S8192x1 .i32)
    (r : Fin 8192) (c : Fin 2) :
    G X0 X1 X2 (ix2 r c) = Cert.Oim.rowOut (fun d => X0 (ix2 r d)) (fun d l => X1 (ix2 d l)) (X2 (ix2 r (0 : Fin 1))) c := rfl

/-- The index maps over the grid: at point t the query, label and result windows sit at block row t, block
    column 0; the bank's window at block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p, feature d of the query block at point t is row 1024 t + p, feature d of the query array. -/
theorem query_block (c : Dev nD) (t : Fin cfg0.N) (p : Fin 1024) (d : Fin 256) (r : Fin 8192) (hr : r.val = t.val * 1024 + p.val) :
    (iblk m c 0 t : Vec Ideal S1024x256 .f32) (ix2 p d) = (V m c main_arg0 : Vec Ideal S8192x256 .f32) (ix2 r d) := by
  obtain ⟨e0, e1, -⟩ := block_index t
  show V m c main_arg0 (((cfg0.win 0).blk t).view.emb (ix2 p d)) = V m c main_arg0 (ix2 r d)
  refine congrArg _ ?_
  funext a; apply Fin.ext
  match a with
  | ⟨0, _⟩ => show win0_0.index t (0 : Fin 2) * 1024 + 1 * p.val = r.val; omega
  | ⟨1, _⟩ => show win0_0.index t (1 : Fin 2) * 256 + 1 * d.val = d.val; omega

/-- The bank's block at every point is the whole bank. -/
theorem bank_block (c : Dev nD) (t : Fin cfg0.N) (d : Fin 256) (l : Fin 11264) :
    (iblk m c 1 t : Vec Ideal S256x11264 .bf16) (ix2 d l) = (V m c main_v8 : Vec Ideal S256x11264 .bf16) (ix2 d l) := by
  obtain ⟨-, -, e0, e1, -⟩ := block_index t
  show V m c main_v8 (((cfg0.win 1).blk t).view.emb (ix2 d l)) = V m c main_v8 (ix2 d l)
  refine congrArg _ ?_
  funext a; apply Fin.ext
  match a with
  | ⟨0, _⟩ => show win0_1.index t (0 : Fin 2) * 256 + 1 * d.val = d.val; omega
  | ⟨1, _⟩ => show win0_1.index t (1 : Fin 2) * 11264 + 1 * l.val = l.val; omega

/-- Row p of the label block at point t is row 1024 t + p of the label column. -/
theorem label_block (c : Dev nD) (t : Fin cfg0.N) (p : Fin 1024) (z : Fin 1) (r : Fin 8192) (hr : r.val = t.val * 1024 + p.val) :
    (iblk m c 2 t : Vec Ideal S1024x1 .i32) (ix2 p z) = (V m c main_v9 : Vec Ideal S8192x1 .i32) (ix2 r z) := by
  obtain ⟨-, -, -, -, e0, e1, -⟩ := block_index t
  show V m c main_v9 (((cfg0.win 2).blk t).view.emb (ix2 p z)) = V m c main_v9 (ix2 r z)
  refine congrArg _ ?_
  funext a; apply Fin.ext
  match a with
  | ⟨0, _⟩ => show win0_2.index t (0 : Fin 2) * 1024 + 1 * p.val = r.val; omega
  | ⟨1, _⟩ => show win0_2.index t (1 : Fin 2) * 1 + 1 * z.val = z.val; omega

/-- Row p, column q of the result block at point t sits at row 1024 t + p, column q of the result array. -/
theorem result_emb (t : Fin cfg0.N) (p : Fin 1024) (q : Fin 2) (r : Fin 8192) (hr : r.val = t.val * 1024 + p.val) :
    (((cfg0.win 3).blk t).view.emb (ix2 p q) : S8192x2.Idx) = ix2 r q := by
  obtain ⟨-, -, -, -, -, -, e0, e1⟩ := block_index t
  funext a; apply Fin.ext
  match a with
  | ⟨0, _⟩ => show win0_3.index t (0 : Fin 2) * 1024 + 1 * p.val = r.val; omega
  | ⟨1, _⟩ => show win0_3.index t (1 : Fin 2) * 2 + 1 * q.val = q.val; omega

/-- WHAT POINT t WRITES BACK is block t of `G` of the three arrays as the region finds them: row p of the block is
    the row function of the point's blocks (`hpay`), and each block is read where the result's block sits. -/
theorem flushed_eq (hpay : ∀ (x0 : Vec Ideal S1024x256 .f32) (x1 : Vec Ideal S256x11264 .bf16) (x2 : Vec Ideal S1024x1 .i32) (p : Fin 1024) (c : Fin 2),
      Gen.out0_3 (F := Ideal) x0 x1 x2 (ix2 p c) = Cert.Oim.rowOut (fun d => x0 (ix2 p d)) (fun d l => x1 (ix2 d l)) (x2 (ix2 p (0 : Fin 1))) c)
    (c : Dev nD) (t : Fin cfg0.N) :
    (dats (F := Ideal) m 0 c).flushed 3 t
      = ((cfg0.win 3).blk t).view.read (Elt Ideal) (G (V m c main_arg0) (V m c main_v8) (V m c main_v9)) := by
  show (cfg0.win 3).cut (grid0.coords t) ((dats m 0 c).after 3 t) = _
  rw [after0_3]
  funext y
  obtain ⟨p, q, rfl⟩ : ∃ (p : Fin 1024) (q : Fin 2), y = ix2 p q := ⟨y 0, y 1, eq_ix2 y⟩
  have hr : t.val * 1024 + p.val < 8192 := by
    have h8 : t.val < 8 := lt_of_lt_of_eq t.isLt N_0
    have := p.isLt; omega
  show out0_3 (iblk m c 0 t) (iblk m c 1 t) (iblk m c 2 t) (ix2 p q)
    = G (V m c main_arg0) (V m c main_v8) (V m c main_v9) (((cfg0.win 3).blk t).view.emb (ix2 p q))
  refine (hpay (iblk m c 0 t) (iblk m c 1 t) (iblk m c 2 t) p q).trans ?_
  refine Eq.trans ?_ (congrArg (G (V m c main_arg0) (V m c main_v8) (V m c main_v9))
    (result_emb t p q ⟨t.val * 1024 + p.val, hr⟩ rfl).symm)
  refine Eq.trans ?_ (G_apply (V m c main_arg0) (V m c main_v8) (V m c main_v9) ⟨t.val * 1024 + p.val, hr⟩ q).symm
  have key : ∀ (A A' : Fin 256 → EReal) (B B' : Fin 256 → Fin 11264 → EReal) (C C' : BitVec 32), A = A' → B = B' → C = C' →
      Cert.Oim.rowOut A B C q = Cert.Oim.rowOut A' B' C' q := by
    intro A A' B B' C C' hA hB hC; rw [hA, hB, hC]
  exact key _ _ _ _ _ _ (funext fun d => query_block m c t p d ⟨t.val * 1024 + p.val, hr⟩ rfl)
    (funext fun d => funext fun l => bank_block m c t d l)
    (label_block m c t p 0 ⟨t.val * 1024 + p.val, hr⟩ rfl)

/-- An index of the result array is in point t's block iff each coordinate is in the block's range on its axis. -/
theorem mem_blk (t : Fin cfg0.N) (i : S8192x2.Idx) :
    i ∈ ((cfg0.win 3).blk t).view.set ↔ ∀ a : Fin 2, win0_3.index t a * S1024x2.size a ≤ (i a).val ∧ (i a).val < win0_3.index t a * S1024x2.size a + S1024x2.size a := by
  show i ∈ ((View.whole main_v10).slice (win0_3.rect t)).set ↔ _
  rw [View.set_slice_whole, Rect.mem_set_unit]
  exact Iff.rfl

/-- The eight blocks tile the result array: row r is in the block of point r / 1024. -/
theorem cover (i : S8192x2.Idx) :
    ∃ t : Fin cfg0.N, (cfg0.win 3).flush t = true ∧ i ∈ ((cfg0.win 3).blk t).view.set := by
  have hi0 : (i 0).val < 8192 := idx2_lt0 i
  have hi1 : (i 1).val < 2 := idx2_lt1 i
  have ht : (i 0).val / 1024 < cfg0.N := lt_of_lt_of_eq (by omega) N_0.symm
  refine ⟨⟨(i 0).val / 1024, ht⟩, flush0_3 _, ?_⟩
  obtain ⟨-, -, -, -, -, -, e0, e1⟩ := block_index ⟨(i 0).val / 1024, ht⟩
  have e0' : win0_3.index ⟨(i 0).val / 1024, ht⟩ (0 : Fin 2) = (i 0).val / 1024 := e0
  rw [mem_blk]
  intro a
  match a with
  | ⟨0, _⟩ => show win0_3.index ⟨(i 0).val / 1024, ht⟩ (0 : Fin 2) * 1024 ≤ (i 0).val ∧ (i 0).val < win0_3.index ⟨(i 0).val / 1024, ht⟩ (0 : Fin 2) * 1024 + 1024; omega
  | ⟨1, _⟩ => show win0_3.index ⟨(i 0).val / 1024, ht⟩ (1 : Fin 2) * 2 ≤ (i 1).val ∧ (i 1).val < win0_3.index ⟨(i 0).val / 1024, ht⟩ (1 : Fin 2) * 2 + 2; omega

/-- THE RESULT ARRAY after the run is `G` of the query array, the class bank and the label column as the region finds them. -/
theorem final (hpay : ∀ (x0 : Vec Ideal S1024x256 .f32) (x1 : Vec Ideal S256x11264 .bf16) (x2 : Vec Ideal S1024x1 .i32) (p : Fin 1024) (c : Fin 2),
      Gen.out0_3 (F := Ideal) x0 x1 x2 (ix2 p c) = Cert.Oim.rowOut (fun d => x0 (ix2 p d)) (fun d l => x1 (ix2 d l)) (x2 (ix2 p (0 : Fin 1))) c)
    (c : Dev nD) :
    (Gen.dats (F := Ideal) m 0 c).arrAt 3 cfg0.N = G (Gen.V m c main_arg0) (Gen.V m c main_v8) (Gen.V m c main_v9) :=
  (dats m 0 c).arrAt_eq_of_cover 3 (G (V m c main_arg0) (V m c main_v8) (V m c main_v9)) (fun t _ => flushed_eq m hpay c t) cover

end Cert.KernelIdeal.Arr

end
-- ==== Proof.HostPre.lean ====
/-
  The two arrays the host operations before the region compute for it, read at an index.
  The class bank (the 5532 lookup rows over the 5000 queue rows, kept as one opaque array) has each class row
  multiplied by (its reliability times 30), is padded with 732 zero rows to 11264, transposed to 256 x 11264 and
  rounded to bf16 (the identity on the extended reals): entry (d, l) is bank (l, d) · (reliability l · 30) for
  l < 10532 and 0 past it. The labels are reshaped from [8192] to a column [8192, 1]: entry (r, 0) is label r.
  Every entry of the bank is an entry of one of its two parts, hence real when those are.
-/
import proofs.«418249_j13116830122679_3_alg».proof.Proof.Spec
import proofs.«418249_j13116830122679_3_alg».proof.Proof.Gen.KernelIdeal.Frame
import Idealize.ShloMosaic.Lib.Pipeline.Value
import Idealize.ShloMosaic.Lib.KernelVsHost
import Idealize.ShloMosaic.Lib.ValueIdx
import Idealize.ShloMosaic.Lib.StableHlo.Run

noncomputable section

namespace Cert.KernelIdeal.HostPre

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ)

/-! # What the host operations before the region leave in the two computed arrays the region reads

The label column: the reshape of the label vector to one column. The transposed bank: the class bank, each
row scaled by (reliability · 30), padded with zero rows to 11264 classes, transposed; the narrowing to bf16 is
the identity on extended reals. -/

/-- The class bank: the two stored halves joined along the class axis. It is never opened below, except to see
    that each of its entries is an entry of one half. -/
def bank (c : Dev nD) : Vec Ideal S10532x256 .f32 :=
  concatenate S10532x256 0 [⟨S5532x256, m ((c : Thread nD τ).loc main_arg3)⟩, ⟨S5000x256, m ((c : Thread nD τ).loc main_arg4)⟩] concatenates_S5532x256_S5000x256_S10532x256_d0

/-! ## The label column -/

/-- The label column at row r is the label vector at r: a reshape keeps the row-major position, r · 1 + 0 = r. -/
theorem V_label (c : Dev nD) (r : Fin 8192) :
    Gen.V (F := Ideal) m c main_v9 (ix2 r (0 : Fin 1)) = m ((c : Thread nD τ).loc main_arg1) (ix1 r) := by
  have e : (Gen.V (F := Ideal) m c main_v9 : S8192x1.Idx → BitVec 32)
      = shapeCast S8192x1 (m ((c : Thread nD τ).loc main_arg1) : S8192.Idx → BitVec 32) shapeCasts_S8192_S8192x1 := by
    dsimp only [Gen.V, Gen.V0]
    simp only [Gen.hostOps0, Gen.hostOps0_1, Gen.hostOps0_2, List.flatten_cons, List.flatten_nil, List.append_nil, List.cons_append, List.nil_append]
    after_results
    rfl
  refine (congrFun e (ix2 r (0 : Fin 1))).trans ?_
  refine shapeCast_apply _ shapeCasts_S8192_S8192x1 (ix2 r (0 : Fin 1)) (ix1 r) ?_
  rw [Shape.rowMajor_val_one, Shape.rowMajor_val_two]
  show r.val = r.val * 1 + 0
  omega

/-! ## The scale column, the padding and the transposition, each read at an index -/

/-- The scale broadcast over the bank's shape, at (l, d): the reliability of class l times the constant. Two
    broadcasts along the class axis read their operand at l; the constant's broadcast reads its one entry. -/
theorem scale_apply (rel : FVec Ideal S10532 .f32) (b : BitVec 32) (l : Fin 10532) (d : Fin 256) :
    broadcastInDim S10532x256 ![0, 1] bcast_S10532x1_S10532x256_0_1
        (broadcastInDim S10532x1 ![0] bcast_S10532_S10532x1_0
          (mulf rel (broadcastInDim S10532 ![] bcast_S_S10532 (constant (F := Ideal) S_ .f32 b)))) (ix2 l d)
      = rel (ix1 l) * Ideal.ofBits .f32 b := by
  refine (broadcastInDim_apply _ bcast_S10532x1_S10532x256_0_1 _ (ix2 l d) (ix2 l (0 : Fin 1)) (fun a => match a with
    | ⟨0, _⟩ => by show l.val = if (10532 : Nat) = 1 then 0 else l.val; rw [if_neg (by decide)]
    | ⟨1, _⟩ => by show 0 = if (1 : Nat) = 1 then 0 else d.val; rw [if_pos rfl])).trans ?_
  refine (broadcastInDim_apply _ bcast_S10532_S10532x1_0 _ (ix2 l (0 : Fin 1)) (ix1 l) (fun a => match a with
    | ⟨0, _⟩ => by show l.val = if (10532 : Nat) = 1 then 0 else l.val; rw [if_neg (by decide)])).trans ?_
  refine (mulf_apply rel _ (ix1 l)).trans ?_
  refine congrArg (rel (ix1 l) * ·) ?_
  refine (broadcastInDim_apply _ bcast_S_S10532 _ (ix1 l) ix0 (fun a => a.elim0)).trans ?_
  rfl

/-- The padded, transposed, narrowed array at (d, l): the operand at (l, d) for a class below 10532, the padding
    value for the 732 rows past it. Narrowing is the identity on extended reals; the transposition swaps the two
    coordinates; the padding is high on the class axis only. -/
theorem padT_apply (x : FVec Ideal S10532x256 .f32) (v : FVec Ideal S_ .f32) (d : Fin 256) (l : Fin 11264) :
    (truncf (F := Ideal) .bf16 (transpose S256x11264 [1, 0]
        (pad S11264x256 ![0, 0] ![732, 0] ![0, 0] x v pads_S10532x256_S11264x256_07320_000 h_S_)
        transposes_S11264x256_S256x11264_1_0 : FVec Ideal S256x11264 .f32) bitsLt_bf16_f32 (ix2 d l) : EReal)
      = if h : l.val < 10532 then x (ix2 (⟨l.val, h⟩ : Fin 10532) d) else v (Shape.Idx.first h_S_) := by
  refine (truncf_apply _ bitsLt_bf16_f32 (ix2 d l)).trans ?_
  refine (transpose_apply [1, 0] _ transposes_S11264x256_S256x11264_1_0 (ix2 d l) (ix2 l d) (fun b => match b with
    | ⟨0, _⟩ => rfl
    | ⟨1, _⟩ => rfl)).trans ?_
  by_cases h : l.val < 10532
  · rw [dif_pos h]
    exact pad_apply_of_inside ![0, 0] ![732, 0] ![0, 0] x v pads_S10532x256_S11264x256_07320_000 h_S_ (ix2 l d)
      (ix2 (⟨l.val, h⟩ : Fin 10532) d) (fun a => match a with
        | ⟨0, _⟩ => by show l.val = 0 + l.val * (0 + 1); omega
        | ⟨1, _⟩ => by show d.val = 0 + d.val * (0 + 1); omega)
  · rw [dif_neg h]
    refine pad_apply_of_not_inside ![0, 0] ![732, 0] ![0, 0] x v pads_S10532x256_S11264x256_07320_000 h_S_ (ix2 l d)
      (0 : Fin 2) ?_
    show ¬(0 ≤ l.val ∧ (l.val - 0) % (0 + 1) = 0 ∧ (l.val - 0) / (0 + 1) < 10532)
    intro hh
    have := hh.2.2
    rw [Nat.sub_zero, Nat.zero_add, Nat.div_one] at this
    exact h this

/-! ## The transposed bank -/

/-- The array the region reads as its class operand is the transposed bank of the row mathematics: below class
    10532 the bank's entry times (reliability · 30), past it the converted integer zero. -/
theorem V_bankT (c : Dev nD) (d : Fin 256) (l : Fin 11264) :
    Gen.V (F := Ideal) m c main_v8 (ix2 d l)
      = Cert.Oim.bankT (fun l' d' => bank m c (ix2 l' d')) (fun l' => m ((c : Thread nD τ).loc main_arg5) (ix1 l')) d l := by
  have e : (Gen.V (F := Ideal) m c main_v8 : S256x11264.Idx → EReal)
      = truncf .bf16 (transpose S256x11264 [1, 0]
          (pad S11264x256 ![0, 0] ![732, 0] ![0, 0]
            (mulf (bank m c)
              (broadcastInDim S10532x256 ![0, 1] bcast_S10532x1_S10532x256_0_1
                (broadcastInDim S10532x1 ![0] bcast_S10532_S10532x1_0
                  (mulf (m ((c : Thread nD τ).loc main_arg5) : Vec Ideal S10532 .f32)
                    (broadcastInDim S10532 ![] bcast_S_S10532 (constant (F := Ideal) S_ .f32 0x41F00000#32))))))
            (sitofp (F := Ideal) .f32 (constantI S_ 32 0#32))
            pads_S10532x256_S11264x256_07320_000 h_S_)
          transposes_S11264x256_S256x11264_1_0) bitsLt_bf16_f32 := by
    dsimp only [Gen.V, Gen.V0]
    simp only [Gen.hostOps0, Gen.hostOps0_1, Gen.hostOps0_2, List.flatten_cons, List.flatten_nil, List.append_nil, List.cons_append, List.nil_append]
    after_results
    rfl
  refine (congrFun e (ix2 d l)).trans ?_
  refine (padT_apply _ _ d l).trans ?_
  unfold Cert.Oim.bankT
  by_cases h : l.val < 10532
  · rw [dif_pos h, dif_pos h]
    refine (mulf_apply (bank m c) _ (ix2 (⟨l.val, h⟩ : Fin 10532) d)).trans ?_
    exact congrArg (bank m c (ix2 (⟨l.val, h⟩ : Fin 10532) d) * ·)
      (scale_apply (m ((c : Thread nD τ).loc main_arg5)) 0x41F00000#32 ⟨l.val, h⟩ d)
  · rw [dif_neg h, dif_neg h]
    show (((0#32 : BitVec 32).toInt : ℝ) : EReal) = 0
    simp

/-! ## The bank's entries are real when the halves' are -/

theorem bank_real (c : Dev nD)
    (h3 : ∀ i, ∃ r : ℝ, m ((c : Thread nD τ).loc main_arg3) i = (r : EReal))
    (h4 : ∀ i, ∃ r : ℝ, m ((c : Thread nD τ).loc main_arg4) i = (r : EReal)) :
    ∀ i, ∃ r : ℝ, bank m c i = (r : EReal) := by
  intro i
  obtain ⟨a, b, rfl⟩ : ∃ (a : Fin 10532) (b : Fin 256), i = ix2 a b := ⟨i 0, i 1, eq_ix2 i⟩
  unfold bank
  by_cases h : a.val < 5532
  · rw [concatenate_pair_apply_left (t := S10532x256) (s₁ := S5532x256) (s₂ := S5000x256) (0 : Fin 2)
      (m ((c : Thread nD τ).loc main_arg3) : S5532x256.Idx → EReal) (m ((c : Thread nD τ).loc main_arg4) : S5000x256.Idx → EReal)
      concatenates_S5532x256_S5000x256_S10532x256_d0 (ix2 a b) rfl
      (ix2 (⟨a.val, h⟩ : Fin 5532) b) (fun b' => match b' with
        | ⟨0, _⟩ => rfl
        | ⟨1, _⟩ => rfl)]
    exact h3 _
  · rw [concatenate_pair_apply_right (t := S10532x256) (s₁ := S5532x256) (s₂ := S5000x256) (0 : Fin 2)
      (m ((c : Thread nD τ).loc main_arg3) : S5532x256.Idx → EReal) (m ((c : Thread nD τ).loc main_arg4) : S5000x256.Idx → EReal)
      concatenates_S5532x256_S5000x256_S10532x256_d0 (ix2 a b) rfl rfl
      (ix2 (⟨a.val - 5532, by have := a.isLt; omega⟩ : Fin 5000) b) (fun b' => match b' with
        | ⟨0, _⟩ => fun hne => absurd rfl hne
        | ⟨1, _⟩ => fun _ => rfl)
      (by show (a.val - 5532) + 5532 = a.val; omega)]
    exact h4 _

end Cert.KernelIdeal.HostPre
end
-- ==== Proof.HostTail.lean ====
/-
  The host operations after the region, read at the ideal values.

  The region leaves an [8192, 2] array: per row, column 0 holds the row's weighted loss and column 1 its validity flag.
  The eleven operations that follow slice each column out ([0:8192, k:k+1]), flatten it to [8192], sum it from the
  constant zero, take the larger of the second sum and the constant one, and divide the first sum by it. Here that
  chain is read at its one (rank-0) index: a slice shifts a coordinate, a flattening keeps the row-major position, a
  float sum into rank 0 is the initial value plus the sum over every index, the maximum and the quotient act
  elementwise, and a splat constant is the value of its word.
-/
import proofs.«418249_j13116830122679_3_alg».proof.Proof.Gen.KernelIdeal.Frame
import Idealize.ShloMosaic.Lib.IdealHost
import Idealize.ShloMosaic.Lib.ValueIdx
import Idealize.ShloMosaic.Lib.ValueIdxRank1
import Idealize.ShloMosaic.Lib.Pipeline.Value
import Idealize.ShloMosaic.PureOps.Ideal.Laws

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Column `k` of the [8192, 2] array as a vector over its rows — the slice `[0:8192, k:k+1]` flattened to [8192] —
    read at row `r`: the flattening keeps the row-major position (row `r` of a one-column array sits at position `r`),
    and the slice shifts the column coordinate by its offset `k`. -/
theorem col_apply (off : Fin 2 → Nat) (k : Fin 2) (hoff0 : off 0 = 0) (hoff1 : off 1 = k.val) (h : S8192x2.Slices off S8192x1)
    (A : S8192x2.Idx → EReal) (r : Fin 8192) :
    shapeCast S8192 (extractStridedSlice S8192x1 off A h) shapeCasts_S8192x1_S8192 (ix1 r) = A (ix2 r k) := by
  refine (shapeCast_apply (extractStridedSlice S8192x1 off A h) shapeCasts_S8192x1_S8192 (ix1 r) (ix2 r (0 : Fin 1)) ?_).trans ?_
  · rewrite [Shape.rowMajor_val_two, Shape.rowMajor_val_one]
    show r.val * 1 + 0 = r.val
    omega
  · refine extractStridedSlice_apply off A h (ix2 r (0 : Fin 1)) (ix2 r k) (fun a => ?_)
    match a with
    | ⟨0, _⟩ => show r.val = off 0 + r.val; omega
    | ⟨1, _⟩ => show k.val = off 1 + 0; omega

/-- A sum over the indices of a rank-1 array is the sum over its coordinate range. -/
theorem sum_rows (f : S8192.Idx → EReal) : ∑ j : S8192.Idx, f j = ∑ r : Fin 8192, f (ix1 r) :=
  (Equiv.sum_comp (idxEquiv1 (n := 8192)).symm f).symm

/-- The host's sum of column `k` from the constant zero, at the ideal values: the constant plus the sum of the column's
    8192 entries (a reduction into rank 0 adds every element to the initial value). -/
theorem colSum_apply (off : Fin 2 → Nat) (k : Fin 2) (hoff0 : off 0 = 0) (hoff1 : off 1 = k.val) (h : S8192x2.Slices off S8192x1)
    (A : S8192x2.Idx → EReal) (i : S_.Idx) :
    Host.reduceAdd (F := Ideal) (shapeCast S8192 (extractStridedSlice S8192x1 off A h) shapeCasts_S8192x1_S8192 : (⟨S8192, .f32⟩ : BufTy).Contents (Elt Ideal))
        (constant (F := Ideal) S_ .f32 0x00000000#32) reducesTo_S8192_S_d0 h_S_ i
      = Ideal.ofBits .f32 0x00000000#32 + ∑ r : Fin 8192, A (ix2 r k) := by
  refine (hostReduceAdd_apply _ _ reducesTo_S8192_S_d0 h_S_ i).trans ?_
  refine (Ideal.hostReduceAdd_total reducesTo_S8192_S_d0 (fun b => b.elim0) _ _ i).trans ?_
  refine congrArg (fun s => Ideal.ofBits .f32 0x00000000#32 + s) ?_
  rw [sum_rows]
  exact Finset.sum_congr rfl (fun r _ => col_apply off k hoff0 hoff1 h A r)

/-- The eleven host operations after the region, as a function of the [8192, 2] array the region leaves: the sum of
    column 0 divided by the larger of the sum of column 1 and one. -/
def tail (A : (⟨S8192x2, .f32⟩ : BufTy).Contents (Elt Ideal)) : (⟨S_, .f32⟩ : BufTy).Contents (Elt Ideal) :=
  Host.divf (F := Ideal)
    (Host.reduceAdd (F := Ideal) (shapeCast S8192 (extractStridedSlice S8192x1 ![0, 0] A slices_S8192x2_S8192x1_0_0) shapeCasts_S8192x1_S8192 : (⟨S8192, .f32⟩ : BufTy).Contents (Elt Ideal))
      (constant (F := Ideal) S_ .f32 0x00000000#32) reducesTo_S8192_S_d0 h_S_)
    (maximumf (F := Ideal)
      (Host.reduceAdd (F := Ideal) (shapeCast S8192 (extractStridedSlice S8192x1 ![0, 1] A slices_S8192x2_S8192x1_0_1) shapeCasts_S8192x1_S8192 : (⟨S8192, .f32⟩ : BufTy).Contents (Elt Ideal))
        (constant (F := Ideal) S_ .f32 0x00000000#32) reducesTo_S8192_S_d0 h_S_)
      (constant (F := Ideal) S_ .f32 0x3F800000#32))

/-- Read at its one index: the quotient and the maximum act on the elements, the constants are their words' values,
    and each reduction is `colSum_apply`'s sum. -/
theorem tail_apply (A : S8192x2.Idx → EReal) (i : S_.Idx) :
    tail A i = Ideal.div (Ideal.ofBits .f32 0x00000000#32 + ∑ r : Fin 8192, A (ix2 r (0 : Fin 2)))
      (max (Ideal.ofBits .f32 0x00000000#32 + ∑ r : Fin 8192, A (ix2 r (1 : Fin 2))) (Ideal.ofBits .f32 0x3F800000#32)) := by
  have e0 := colSum_apply ![0, 0] 0 rfl rfl slices_S8192x2_S8192x1_0_0 A i
  have e1 := colSum_apply ![0, 1] 1 rfl rfl slices_S8192x2_S8192x1_0_1 A i
  unfold tail
  show Ideal.div _ (max _ (Ideal.ofBits .f32 0x3F800000#32)) = _
  rw [e0, e1]

/-- The run of the eleven operations: each result buffer holds its operation's value of its operands' contents, the
    first operands' being the region's output buffer. -/
theorem run_eq (c : Dev nD) :
    Pipeline.afterTail₀ cfgs (Gen.dats (F := Ideal) m) 0 (Gen.V0 m) [Gen.hostOps1] c main_v18
      = tail (Pipeline.withArrays spec0 c (Gen.V0 m c) (fun w => (Gen.dats (F := Ideal) m 0 c).arrAt w cfg0.N) (Proc.devRef .tc main_v10)) := by
  unfold Pipeline.afterTail₀
  show StableHlo.after Gen.hostOps1 _ (Proc.devRef .tc main_v18) = _
  simp only [Gen.hostOps1]
  after_results
  rfl

/-- The region's output buffer is the fourth window's array, which the frame has at its contents after the last
    grid point. -/
theorem arr_eq (c : Dev nD) :
    Pipeline.withArrays spec0 c (Gen.V0 m c) (fun w => (Gen.dats (F := Ideal) m 0 c).arrAt w cfg0.N) (Proc.devRef .tc main_v10)
      = (Gen.dats (F := Ideal) m 0 c).arrAt 3 cfg0.N :=
  Pipeline.withArrays_arr spec0 launch0.win.arr_inj c _ _ 3

/-- The region's output array after the last grid point, at its literal type. -/
abbrev outArr (c : Dev nD) : S8192x2.Idx → EReal := (Gen.dats (F := Ideal) m 0 c).arrAt 3 cfg0.N

/-- THE RESULT, for any name `A` of the region's output array: after the host operations that follow the region the
    program's result buffer holds, at its one index, the sum of column 0 of `A` (from the constant zero) divided by the
    larger of the sum of column 1 (from zero) and the constant one. -/
theorem result_of (c : Dev nD) (A : S8192x2.Idx → EReal) (hA : (Gen.dats (F := Ideal) m 0 c).arrAt 3 cfg0.N = A) :
    Pipeline.afterTail₀ cfgs (Gen.dats (F := Ideal) m) 0 (Gen.V0 m) [Gen.hostOps1] c main_v18
      = fun _ => Ideal.div (Ideal.ofBits .f32 0x00000000#32 + ∑ r : Fin 8192, A (ix2 r (0 : Fin 2)))
          (max (Ideal.ofBits .f32 0x00000000#32 + ∑ r : Fin 8192, A (ix2 r (1 : Fin 2))) (Ideal.ofBits .f32 0x3F800000#32)) := by
  refine (run_eq m c).trans ?_
  refine (congrArg tail ((arr_eq m c).trans hA)).trans ?_
  funext i
  exact tail_apply A i

/-- THE RESULT at the frame's own array. -/
theorem result (c : Dev nD) :
    Pipeline.afterTail₀ cfgs (Gen.dats (F := Ideal) m) 0 (Gen.V0 m) [Gen.hostOps1] c main_v18
      = fun _ => Ideal.div (Ideal.ofBits .f32 0x00000000#32 + ∑ r : Fin 8192, outArr m c (ix2 r (0 : Fin 2)))
          (max (Ideal.ofBits .f32 0x00000000#32 + ∑ r : Fin 8192, outArr m c (ix2 r (1 : Fin 2))) (Ideal.ofBits .f32 0x3F800000#32)) :=
  result_of m c (outArr m c) rfl

end Cert.KernelIdeal.Tail

end
-- ==== Proof.Algebra.lean ====
/-
  The row identity of the OIM loss: for a query row of real features, a real class bank and real
  reliabilities, the number the kernel's row computes equals the reference's summand.

  Kernel side. A class column l < 10532 of the transposed, scaled bank gives the logit
  x l = ((∑ d, q d · bank l d) · reliability l) · 30 (the scale moves out of the feature sum); a padding
  column gives 0 and, being in the last tile, is sent to -∞ by the mask, so its exponential is 0. The
  eight tiles of 1408 columns cover the 11264 columns once each, hence the accumulated exponentials are
  ∑ l, exp (x l) > 0 and the row's log-sum-exp is its real logarithm. The one-hot picks compare a column
  number j < 1408 with the word (label − tile start): the word equals j exactly when the label's column
  lies in that tile at offset j (a tile past the label wraps to a word far above 1407), so the picks
  add up to x (label).

  Reference side. The row maximum M of real logits is real, so
  log ∑ exp (x l − M) = log ∑ exp (x l) − M and the log-softmax at l is x l − log ∑ exp x.

  Both sides are then log ∑ exp x − x (label) where the label is valid, and 0 at the ignore index.
-/
import proofs.«418249_j13116830122679_3_alg».proof.Proof.Spec
import Idealize.ShloMosaic.Lib.Affine
import Mathlib.Analysis.SpecialFunctions.Log.Basic
import Mathlib.Analysis.SpecialFunctions.Exp
import Mathlib.Data.EReal.Operations
import Mathlib.Algebra.BigOperators.Fin
import Mathlib.Algebra.Order.BigOperators.Group.Finset
import Mathlib.Data.Finset.Fold

noncomputable section

namespace Cert.Oim

open Idealize.ShloMosaic

namespace Alg

/-! ## Literals, flags and selects -/

/-- The bank's scale literal is the real number 30. -/
theorem thirty : Ideal.ofBits .f32 0x41F00000#32 = ((30 : ℝ) : EReal) := by
  simp [Ideal.ofBits, Ideal.ieee, -EReal.coe_mul]; norm_num

/-- A one-bit word widened and read signed is the same number as the bit read unsigned. -/
theorem bit_toInt (c : BitVec 1) : ((c.setWidth 32).toInt : ℝ) = (c.toNat : ℝ) := by
  have h : ∀ c : BitVec 1, (c.setWidth 32).toInt = (c.toNat : Int) := by decide
  rw [h c]; simp

theorem validF_of_ne {lab : BitVec 32} (h : lab ≠ 5554#32) : validF lab = 1 := by
  have hc : IntOp.cmpi .ne lab 5554#32 = 1#1 := IntOp.cmpi_ne.2 h
  show (((((IntOp.cmpi .ne lab 5554#32).setWidth 32).toInt : ℝ)) : EReal) = 1
  rw [hc]; simp

theorem validF_ignore : validF 5554#32 = 0 := by
  show (((((IntOp.cmpi .ne 5554#32 5554#32).setWidth 32).toInt : ℝ)) : EReal) = 0
  have hc : IntOp.cmpi .ne (5554#32) 5554#32 = 0#1 := by decide
  rw [hc]; simp

/-- A comparison word is 0 when it is not 1. -/
theorem bit_cases (c : BitVec 1) : c = 1#1 ∨ c = 0#1 := by revert c; decide

theorem select_pos {α : Type} {c : BitVec 1} (h : c = 1#1) (a b : α) : Scalar.select c a b = a := by
  subst h; exact ValueIdx.select_one a b

theorem select_neg {α : Type} {c : BitVec 1} (h : ¬ c = 1#1) (a b : α) : Scalar.select c a b = b := by
  rcases bit_cases c with h' | h'
  · exact absurd h' h
  · subst h'; exact ValueIdx.select_zero a b

/-- The padding mask of the last tile, read as arithmetic on the column number. -/
theorem maskPad_apply (y : Fin 1408 → EReal) (j : Fin 1408) :
    maskPad y j = if 9856 + j.val < 10532 then y j else ⊥ := by
  have hj := j.isLt
  have hw : (IntOp.addi 9856#32 (BitVec.ofNat 32 j.val)).toInt = ((9856 + j.val : ℕ) : Int) := by
    have hn : (IntOp.addi 9856#32 (BitVec.ofNat 32 j.val)).toNat = 9856 + j.val := by
      show (9856#32 + BitVec.ofNat 32 j.val).toNat = _
      rw [BitVec.toNat_add, BitVec.toNat_ofNat, BitVec.toNat_ofNat]; omega
    rw [BitVec.toInt_eq_toNat_of_lt (by omega), hn]
  have hc : IntOp.cmpi .slt (IntOp.addi 9856#32 (BitVec.ofNat 32 j.val)) 10532#32 = 1#1 ↔ 9856 + j.val < 10532 := by
    rw [IntOp.cmpi_slt, hw, show (10532#32 : BitVec 32).toInt = 10532 from by decide]; omega
  unfold maskPad
  by_cases h : 9856 + j.val < 10532
  · rw [if_pos h, select_pos (hc.2 h)]
  · rw [if_neg h, select_neg (fun hh => h (hc.1 hh))]

/-! ## Picking a column -/

theorem toNat_ofNat_small {n : ℕ} (h : n < 1408) : (BitVec.ofNat 32 n).toNat = n := by
  rw [BitVec.toNat_ofNat]; omega

/-- A pick whose word is the number of a column of the tile is the tile's value there:
    every other column falls to the zero branch. -/
theorem pick_hit (y : Fin 1408 → EReal) (t : BitVec 32) (j0 : Fin 1408) (ht : t.toNat = j0.val) :
    pick y t = y j0 := by
  unfold pick
  rw [Finset.sum_eq_single j0]
  · refine select_pos (IntOp.cmpi_eq.2 ?_) _ _
    apply BitVec.eq_of_toNat_eq
    rw [toNat_ofNat_small j0.isLt, ht]
  · intro j _ hj
    refine select_neg (fun hc => hj ?_) _ _
    have h1 := congrArg BitVec.toNat (IntOp.cmpi_eq.1 hc)
    rw [toNat_ofNat_small j.isLt, ht] at h1
    exact Fin.ext h1
  · intro h; exact absurd (Finset.mem_univ j0) h

/-- A pick whose word is past the tile's width is zero. -/
theorem pick_miss (y : Fin 1408 → EReal) (t : BitVec 32) (ht : 1408 ≤ t.toNat) : pick y t = 0 := by
  unfold pick
  refine Finset.sum_eq_zero (fun j _ => select_neg (fun hc => ?_) _ _)
  have h1 := congrArg BitVec.toNat (IntOp.cmpi_eq.1 hc)
  rw [toNat_ofNat_small j.isLt] at h1
  have := j.isLt; omega

/-- The label less a tile's first column, as a word: the difference when the label is in or past the tile,
    otherwise a wrapped word far above any column number. -/
theorem toNat_subi (lab : BitVec 32) (c : ℕ) (hL : lab.toNat < 10532) (hc : c ≤ 9856) :
    (IntOp.subi lab (BitVec.ofNat 32 c)).toNat = if c ≤ lab.toNat then lab.toNat - c else 4294967296 + lab.toNat - c := by
  show (lab - BitVec.ofNat 32 c).toNat = _
  rw [BitVec.toNat_sub, BitVec.toNat_ofNat]
  split <;> omega

/-- The pick of a tile that starts at column c, at the label: the tile's value at (label − c) when the label's
    column lies in the tile, else zero. -/
theorem pick_sub (y : Fin 1408 → EReal) (lab : BitVec 32) (c : ℕ) (hL : lab.toNat < 10532) (hc : c ≤ 9856) :
    pick y (IntOp.subi lab (BitVec.ofNat 32 c))
      = if h : c ≤ lab.toNat ∧ lab.toNat < c + 1408 then y ⟨lab.toNat - c, by omega⟩ else 0 := by
  have hs := toNat_subi lab c hL hc
  by_cases h : c ≤ lab.toNat ∧ lab.toNat < c + 1408
  · rw [dif_pos h]
    refine pick_hit y _ ⟨lab.toNat - c, by omega⟩ ?_
    rw [hs, if_pos h.1]
  · rw [dif_neg h]
    refine pick_miss y _ ?_
    rw [hs]; split <;> omega

/-! ## Sums -/

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Eight tiles of 1408 columns are the 11264 columns, each once. -/
theorem sum_tiles (F : ℕ → ℝ) :
    ∑ k : Fin 8, ∑ j : Fin 1408, F (1408 * k.val + j.val) = ∑ c ∈ Finset.range 11264, F c := by
  rw [← Fin.sum_univ_eq_sum_range F 11264, ← Fintype.sum_prod_type']
  refine Fintype.sum_equiv (finProdFinEquiv (m := 8) (n := 1408)) _ _ (fun p => ?_)
  show F (1408 * p.1.val + p.2.val) = F (p.2.val + 1408 * p.1.val)
  rw [Nat.add_comm]

/-- A sum over the 11264 columns of a function that vanishes from column 10532 on is the sum over the classes. -/
theorem sum_classes (x : Fin 10532 → ℝ) :
    ∑ c ∈ Finset.range 11264, (if h : c < 10532 then Real.exp (x ⟨c, h⟩) else 0) = ∑ l : Fin 10532, Real.exp (x l) := by
  rw [← Finset.sum_subset (Finset.range_subset_range.2 (by norm_num : 10532 ≤ 11264))
    (fun c _ hc => dif_neg (by simpa using hc))]
  rw [← Fin.sum_univ_eq_sum_range (fun c => if h : c < 10532 then Real.exp (x ⟨c, h⟩) else 0) 10532]
  exact Finset.sum_congr rfl (fun l _ => dif_pos l.isLt)

/-! ## The tiles as the row uses them -/

/-- Tile k as the row uses it: the last tile masked, the others as they are. -/
def tileM (q : Fin 256 → EReal) (bt : Fin 256 → Fin 11264 → EReal) (k : Fin 8) : Fin 1408 → EReal :=
  if k.val = 7 then maskPad (tile q bt k) else tile q bt k

theorem rowLse_eq_sum (q : Fin 256 → EReal) (bt : Fin 256 → Fin 11264 → EReal) :
    rowLse q bt = Ideal.log (∑ k : Fin 8, expSum (tileM q bt k)) := by
  have h7 : tileM q bt 7 = maskPad (tile q bt 7) := if_pos rfl
  have hk : ∀ k : Fin 8, k.val ≠ 7 → tileM q bt k = tile q bt k := fun k h => if_neg h
  rw [Fin.sum_univ_eight, h7, hk 0 (by decide), hk 1 (by decide), hk 2 (by decide), hk 3 (by decide),
    hk 4 (by decide), hk 5 (by decide), hk 6 (by decide)]
  unfold rowLse
  rw [zero_add]

theorem rowTgt_eq_sum (q : Fin 256 → EReal) (bt : Fin 256 → Fin 11264 → EReal) (lab : BitVec 32) :
    rowTgt q bt lab = ∑ k : Fin 8, pick (tileM q bt k) (IntOp.subi lab (BitVec.ofNat 32 (1408 * k.val))) := by
  have h7 : tileM q bt 7 = maskPad (tile q bt 7) := if_pos rfl
  have hk : ∀ k : Fin 8, k.val ≠ 7 → tileM q bt k = tile q bt k := fun k h => if_neg h
  rw [Fin.sum_univ_eight, h7, hk 0 (by decide), hk 1 (by decide), hk 2 (by decide), hk 3 (by decide),
    hk 4 (by decide), hk 5 (by decide), hk 6 (by decide)]
  unfold rowTgt
  rw [zero_add]
  rfl

/-! ## Real inputs -/

section real

variable (qr : Fin 256 → ℝ) (br : Fin 10532 → Fin 256 → ℝ) (rr : Fin 10532 → ℝ)

/-- The logit of class l as a real number: ((∑ d, q d · bank l d) · reliability l) · 30. -/
def xr (l : Fin 10532) : ℝ := ((∑ d : Fin 256, qr d * br l d) * rr l) * 30

theorem refLogit_coe (l : Fin 10532) :
    refLogit (fun d => (qr d : EReal)) (fun l d => (br l d : EReal)) (fun l => (rr l : EReal)) l
      = (xr qr br rr l : EReal) := by
  unfold refLogit xr
  simp only [thirty, ← EReal.coe_mul, ← coe_sum]

/-- A column of a tile: the class's logit for a class column (the scale moved out of the feature sum),
    zero for a padding column (its bank column is zero). -/
theorem tile_coe (k : Fin 8) (j : Fin 1408) :
    tile (fun d => (qr d : EReal)) (bankT (fun l d => (br l d : EReal)) (fun l => (rr l : EReal))) k j
      = if h : 1408 * k.val + j.val < 10532 then (xr qr br rr ⟨1408 * k.val + j.val, h⟩ : EReal) else 0 := by
  simp only [tile, bankT, col]
  by_cases h : 1408 * k.val + j.val < 10532
  · simp only [dif_pos h, thirty, ← EReal.coe_mul, ← coe_sum]
    unfold xr
    congr 1
    rw [Finset.sum_mul, Finset.sum_mul]
    exact Finset.sum_congr rfl (fun d _ => by ring)
  · simp only [h, ↓reduceDIte, mul_zero, Finset.sum_const_zero]

/-- A column of a tile as the row uses it: the class's logit, or -∞ for a padding column
    (padding columns occur in the last tile only, and there the mask sends them to -∞). -/
theorem tileM_coe (k : Fin 8) (j : Fin 1408) :
    tileM (fun d => (qr d : EReal)) (bankT (fun l d => (br l d : EReal)) (fun l => (rr l : EReal))) k j
      = if h : 1408 * k.val + j.val < 10532 then (xr qr br rr ⟨1408 * k.val + j.val, h⟩ : EReal) else ⊥ := by
  have hk := k.isLt
  have hj := j.isLt
  unfold tileM
  by_cases h7 : k.val = 7
  · rw [if_pos h7, maskPad_apply, tile_coe]
    by_cases h : 1408 * k.val + j.val < 10532
    · rw [if_pos (by omega), dif_pos h, dif_pos h]
    · rw [if_neg (by omega), dif_neg h]
  · have h : 1408 * k.val + j.val < 10532 := by omega
    rw [if_neg h7, tile_coe, dif_pos h, dif_pos h]

/-- The exponential of the logit of column c, zero for a padding column. -/
def Ec (x : Fin 10532 → ℝ) (c : ℕ) : ℝ := if h : c < 10532 then Real.exp (x ⟨c, h⟩) else 0

theorem expSum_tileM (k : Fin 8) :
    expSum (tileM (fun d => (qr d : EReal)) (bankT (fun l d => (br l d : EReal)) (fun l => (rr l : EReal))) k)
      = ((∑ j : Fin 1408, Ec (xr qr br rr) (1408 * k.val + j.val) : ℝ) : EReal) := by
  unfold expSum
  rw [coe_sum]
  refine Finset.sum_congr rfl (fun j _ => ?_)
  rw [tileM_coe]
  unfold Ec
  by_cases h : 1408 * k.val + j.val < 10532
  · rw [dif_pos h, dif_pos h, Ideal.exp_coe]
  · rw [dif_neg h, dif_neg h, Ideal.exp_bot, EReal.coe_zero]

theorem sumExp_pos (x : Fin 10532 → ℝ) : 0 < ∑ l : Fin 10532, Real.exp (x l) :=
  Finset.sum_pos (fun l _ => Real.exp_pos _) ⟨⟨0, by norm_num⟩, Finset.mem_univ _⟩

/-- The row's log-sum-exp: the eight tiles cover the classes once each, the padding adds zeros. -/
theorem rowLse_coe :
    rowLse (fun d => (qr d : EReal)) (bankT (fun l d => (br l d : EReal)) (fun l => (rr l : EReal)))
      = ((Real.log (∑ l : Fin 10532, Real.exp (xr qr br rr l)) : ℝ) : EReal) := by
  rw [rowLse_eq_sum]
  simp only [expSum_tileM]
  rw [← coe_sum, sum_tiles (Ec (xr qr br rr))]
  have h := sum_classes (xr qr br rr)
  unfold Ec
  rw [h, Ideal.log_coe, if_neg (not_le.2 (sumExp_pos _))]

/-- The pick of tile k at the label: the label's logit when the label's column lies in tile k, else zero. -/
theorem pick_tileM (lab : BitVec 32) (hL : lab.toNat < 10532) (k : Fin 8) :
    pick (tileM (fun d => (qr d : EReal)) (bankT (fun l d => (br l d : EReal)) (fun l => (rr l : EReal))) k)
        (IntOp.subi lab (BitVec.ofNat 32 (1408 * k.val)))
      = if lab.toNat / 1408 = k.val then (xr qr br rr ⟨lab.toNat, hL⟩ : EReal) else 0 := by
  have hk := k.isLt
  rw [pick_sub _ _ _ hL (by omega)]
  by_cases h : lab.toNat / 1408 = k.val
  · have hc : 1408 * k.val ≤ lab.toNat ∧ lab.toNat < 1408 * k.val + 1408 := by omega
    rw [if_pos h, dif_pos hc, tileM_coe]
    have hlt : 1408 * k.val + (lab.toNat - 1408 * k.val) < 10532 := by omega
    refine (dif_pos hlt).trans ?_
    exact congrArg (fun l => ((xr qr br rr l : ℝ) : EReal)) (Fin.ext (by show 1408 * k.val + (lab.toNat - 1408 * k.val) = lab.toNat; omega))
  · rw [if_neg h, dif_neg (by omega)]

/-- The row's target logit: exactly one tile holds the label's column. -/
theorem rowTgt_coe (lab : BitVec 32) (hL : lab.toNat < 10532) :
    rowTgt (fun d => (qr d : EReal)) (bankT (fun l d => (br l d : EReal)) (fun l => (rr l : EReal))) lab
      = (xr qr br rr ⟨lab.toNat, hL⟩ : EReal) := by
  rw [rowTgt_eq_sum]
  simp only [pick_tileM qr br rr lab hL]
  have hk0 : lab.toNat / 1408 < 8 := by omega
  rw [Finset.sum_eq_single (⟨lab.toNat / 1408, hk0⟩ : Fin 8)]
  · exact if_pos rfl
  · intro k _ hne
    exact if_neg (fun h => hne (Fin.ext h.symm))
  · intro h; exact absurd (Finset.mem_univ _) h

end real

/-! ## The reference's row -/

/-- The fold of max from -∞ over a nonempty finite family of reals is a real. -/
theorem fold_max_coe {ι : Type} (s : Finset ι) (f : ι → ℝ) :
    s.fold max ⊥ (fun i => (f i : EReal)) = ⊥ ∨ ∃ M : ℝ, s.fold max ⊥ (fun i => (f i : EReal)) = M := by
  classical
  induction s using Finset.induction_on with
  | empty => exact Or.inl Finset.fold_empty
  | insert a s ha ih =>
    right
    rw [Finset.fold_insert ha]
    rcases ih with h | ⟨M, h⟩
    · exact ⟨f a, by rw [h]; exact max_eq_left bot_le⟩
    · rw [h]
      rcases le_total (f a) M with hle | hle
      · exact ⟨M, max_eq_right (EReal.coe_le_coe_iff.2 hle)⟩
      · exact ⟨f a, max_eq_left (EReal.coe_le_coe_iff.2 hle)⟩

/-- The reference's row maximum of real logits is a real. -/
theorem refMax_coe (x : Fin 10532 → ℝ) : ∃ M : ℝ, refMax (fun l => (x l : EReal)) = M := by
  unfold refMax
  rcases fold_max_coe Finset.univ x with h | ⟨M, h⟩
  · exfalso
    have hle : ((x ⟨0, by norm_num⟩ : ℝ) : EReal) ≤ Finset.univ.fold max ⊥ (fun l => (x l : EReal)) := by
      rw [Finset.le_fold_max]; exact Or.inr ⟨_, Finset.mem_univ _, le_refl _⟩
    rw [h] at hle
    exact EReal.coe_ne_bot _ (le_bot_iff.1 hle)
  · exact ⟨M, by rw [h]; exact max_eq_right bot_le⟩

/-- The shift by the row maximum cancels: log-softmax of real logits at l is x l − log ∑ exp x. -/
theorem refLogp_coe (x : Fin 10532 → ℝ) (l : Fin 10532) :
    refLogp (fun l => (x l : EReal)) l = ((x l - Real.log (∑ l' : Fin 10532, Real.exp (x l')) : ℝ) : EReal) := by
  obtain ⟨M, hM⟩ := refMax_coe x
  have hS : ∑ l' : Fin 10532, Real.exp (x l' - M) = (∑ l' : Fin 10532, Real.exp (x l')) / Real.exp M := by
    rw [Finset.sum_div]; exact Finset.sum_congr rfl (fun l' _ => Real.exp_sub _ _)
  have hpos : 0 < ∑ l' : Fin 10532, Real.exp (x l' - M) := sumExp_pos (fun l' => x l' - M)
  unfold refLogp
  rw [hM]
  simp only [← EReal.coe_sub, Ideal.exp_coe, ← coe_sum, zero_add]
  rw [Ideal.log_coe, if_neg (not_le.2 hpos), ← EReal.coe_sub, hS,
    Real.log_div (ne_of_gt (sumExp_pos x)) (ne_of_gt (Real.exp_pos M)), Real.log_exp]
  refine congrArg (fun r : ℝ => (r : EReal)) ?_
  ring

end Alg

open Alg

/-! ## The validity flag -/

theorem validF_eq_refV (lab : BitVec 32) : validF lab = refV lab := by
  show (((((IntOp.cmpi .ne lab 5554#32).setWidth 32).toInt : ℝ)) : EReal) = (((IntOp.cmpi .ne lab 5554#32).toNat : ℝ) : EReal)
  rw [bit_toInt]

/-! ## The row -/

theorem row_eq (q : Fin 256 → EReal) (bank : Fin 10532 → Fin 256 → EReal) (rel : Fin 10532 → EReal) (lab : BitVec 32)
    (hq : ∀ d, ∃ r : ℝ, q d = r) (hb : ∀ l d, ∃ r : ℝ, bank l d = r) (hr : ∀ l, ∃ r : ℝ, rel l = r)
    (hlab : lab.toNat < 10532) (hs : (safeLab lab).toNat < 10532) :
    (rowLse q (bankT bank rel) - rowTgt q (bankT bank rel) lab) * validF lab
      = refA (fun l => refLogit q bank rel l) lab hs := by
  choose qr hqr using hq
  choose br hbr using hb
  choose rr hrr using hr
  obtain rfl : q = fun d => (qr d : EReal) := funext hqr
  obtain rfl : bank = fun l d => (br l d : EReal) := funext (fun l => funext (hbr l))
  obtain rfl : rel = fun l => (rr l : EReal) := funext hrr
  have hx : (fun l => refLogit (fun d => (qr d : EReal)) (fun l d => (br l d : EReal)) (fun l => (rr l : EReal)) l)
      = fun l => (xr qr br rr l : EReal) := funext (refLogit_coe qr br rr)
  rw [hx, rowLse_coe, rowTgt_coe qr br rr lab hlab, ← EReal.coe_sub]
  unfold refA
  by_cases h : lab = 5554#32
  · have hc : ¬ IntOp.cmpi .ne lab 5554#32 = 1#1 := fun hc => IntOp.cmpi_ne.1 hc h
    have hv : validF lab = 0 := by rw [h]; exact validF_ignore
    rw [select_neg hc, hv, mul_zero]
  · have hc : IntOp.cmpi .ne lab 5554#32 = 1#1 := IntOp.cmpi_ne.2 h
    have hsl : safeLab lab = lab := select_pos hc _ _
    have hf : (⟨(safeLab lab).toNat, hs⟩ : Fin 10532) = ⟨lab.toNat, hlab⟩ := Fin.ext (congrArg BitVec.toNat hsl)
    rw [select_pos hc, validF_of_ne h, mul_one, hf, refLogp_coe, ← EReal.coe_neg]
    refine congrArg (fun r : ℝ => (r : EReal)) ?_
    ring

end Cert.Oim

end
-- ==== Proof.RefRow.lean ====
/-
  The jnp reference read row by row. Its result is (0 + the sum over the 8192 rows of the masked negative
  log-likelihood) / max (0 + the sum over the rows of the validity flag, 1). Row r's flag is one where the label is
  not the ignore index; row r's summand is minus the log-softmax of the row's logits at the (safe) label where the
  label is valid, else zero. The log-softmax is the shifted one: the row maximum is taken off every logit before
  the exponentials are summed. The label's logit is fetched by a batched gather along the class axis, whose start
  index is the safe label (below 10532, hence read as it stands: nonnegative, in bounds, unclamped).
-/
import proofs.«418249_j13116830122679_3_alg».proof.Proof.Spec
import proofs.«418249_j13116830122679_3_alg».proof.Proof.RefRead
import Idealize.ShloMosaic.PureOps.Reduce
import Idealize.ShloMosaic.PureOps.Ideal.Laws
import Idealize.ShloMosaic.Lib.Affine
import Idealize.ShloMosaic.Lib.ValueIdx

noncomputable section

open scoped BigOperators

namespace Cert.ReferenceIdeal.Row

open Cert.ReferenceIdeal Cert.ReferenceIdeal.Gen Cert.ReferenceIdeal.Read Idealize.ShloMosaic Idealize.ShloMosaic.ValueIdx

variable (x0 : (⟨S8192x256, .f32⟩ : BufTy).Contents (Elt Ideal)) (x1 : (⟨S8192, .i32⟩ : BufTy).Contents (Elt Ideal))
  (x3 : (⟨S5532x256, .f32⟩ : BufTy).Contents (Elt Ideal)) (x4 : (⟨S5000x256, .f32⟩ : BufTy).Contents (Elt Ideal))
  (x5 : (⟨S10532, .f32⟩ : BufTy).Contents (Elt Ideal))

/-! ## The label -/

/-- The safe label of a label below 10532 is below 10532: it is the label itself or zero. -/
theorem safe_lt (lab : BitVec 32) (h : lab.toNat < 10532) : (Cert.Oim.safeLab lab).toNat < 10532 := by
  unfold Cert.Oim.safeLab
  rcases BitVec.eq_zero_or_eq_one (IntOp.cmpi .ne lab 5554#32) with h0 | h1
  · rw [h0, select_zero]; decide
  · rw [h1, select_one]; exact h

/-- The validity flag of row r: the bit of the comparison with the ignore index, read unsigned. -/
theorem v16_apply (r : Fin 8192) : val_main_v16 (F := Ideal) x1 (ix1 r) = Cert.Oim.refV (x1 (ix1 r)) := by
  rw [val_main_v16_apply, val_main_v10_apply, val_main_v9_apply, val_main_c_apply]
  rfl

/-! ## The two sums over the rows -/

/-- The rows of a rank-1 array of 8192 entries, as a bijection with its index set. -/
def rowEquiv : Fin 8192 ≃ S8192.Idx where
  toFun r := ix1 r
  invFun j := j 0
  left_inv _ := rfl
  right_inv j := (eq_ix1 j).symm

/-- A sum over the index set of a rank-1 array of 8192 entries is the sum over its rows. -/
theorem sum_rows (f : S8192.Idx → EReal) : ∑ j : S8192.Idx, f j = ∑ r : Fin 8192, f (ix1 r) :=
  (Equiv.sum_comp rowEquiv f).symm

/-- The result: the sum of the rows' summands over the larger of the number of valid rows and one. -/
theorem result_eq : val_main_v21 (F := Ideal) x0 x1 x3 x4 x5
      = fun _ => Ideal.div (Ideal.ofBits .f32 0x00000000#32 + ∑ r : Fin 8192, val_main_v19 (F := Ideal) x0 x1 x3 x4 x5 (ix1 r))
          (max (Ideal.ofBits .f32 0x00000000#32 + ∑ r : Fin 8192, val_main_v16 (F := Ideal) x1 (ix1 r)) (Ideal.ofBits .f32 0x3F800000#32)) := by
  funext i
  rw [val_main_v21_apply, val_main_v20_apply, val_main_v18_apply, val_main_v17_apply, val_main_cst_4_apply,
    val_main_cst_1_apply, val_main_cst_2_apply, sum_rows, sum_rows]
  rfl

/-! ## The row's logits -/

/-- Row r's logits as the specification writes them: the row of the first argument against the joined class bank,
    times the reliability, times thirty. -/
abbrev rowLogits (r : Fin 8192) : Fin 10532 → EReal := fun l =>
  Cert.Oim.refLogit (fun d => x0 (ix2 r d)) (fun l' d' => val_main_v0 (F := Ideal) x3 x4 (ix2 l' d')) (fun l' => x5 (ix1 l')) l

theorem lidx_eq (r : Fin 8192) (l : Fin 10532) (k : Fin 256) : lidx_main_v2 (ix2 r l) k = ix2 r k :=
  funext fun a => Fin.ext (by match a with | ⟨0, _⟩ => rfl | ⟨1, _⟩ => rfl)

theorem ridx_eq (r : Fin 8192) (l : Fin 10532) (k : Fin 256) : idx_main_v1 (ridx_main_v2 (ix2 r l) k) = ix2 l k :=
  funext fun a => Fin.ext (by match a with | ⟨0, _⟩ => rfl | ⟨1, _⟩ => rfl)

theorem relidx_eq (r : Fin 8192) (l : Fin 10532) : idx_main_v3 (idx_main_v4 (ix2 r l)) = ix1 l :=
  funext fun a => Fin.ext (by match a with | ⟨0, _⟩ => rfl)

/-- The logit of row r and class l: the contraction over the 256 features of the row with the transposed bank,
    times the broadcast reliability, times the broadcast constant. -/
theorem logit_apply (r : Fin 8192) (l : Fin 10532) :
    val_main_v7 (F := Ideal) x0 x3 x4 x5 (ix2 r l) = rowLogits x0 x3 x4 x5 r l := by
  rw [val_main_v7_apply, val_main_v5_apply, val_main_v6_apply, val_main_cst_apply, val_main_v2_apply,
    val_main_v4_apply, val_main_v3_apply, relidx_eq]
  have hk : ∀ k : Fin 256, x0 (lidx_main_v2 (ix2 r l) k) * (val_main_v1 (F := Ideal) x3 x4) (ridx_main_v2 (ix2 r l) k)
      = x0 (ix2 r k) * val_main_v0 (F := Ideal) x3 x4 (ix2 l k) := fun k => by
    rw [val_main_v1_apply, lidx_eq, ridx_eq]
  rw [Finset.sum_congr rfl fun k _ => hk k]
  rfl

/-! ## The row maximum -/

/-- The literal of the maximum's initial value is -∞. -/
theorem neg_inf : Ideal.ofBits .f32 0xFF800000#32 = (⊥ : EReal) := by simp [Ideal.ofBits, Ideal.ieee]

/-- Dropping the class axis of a [8192, 10532] array leaves its rows. -/
theorem reduces_rows : S8192x10532.Reduces [1] S8192 := by decide

theorem lift_eq (r : Fin 8192) (k : Fin 10532) : reduces_rows.lift (ix1 r) k = ix2 r k :=
  funext fun a => Fin.ext (by match a with | ⟨0, _⟩ => rfl | ⟨1, _⟩ => rfl)

/-- The maximum of row r: the fold of max over the row's logits from -∞, then once more against -∞. -/
theorem max_apply (r : Fin 8192) :
    val_main_call0_v2 (F := Ideal) x0 x3 x4 x5 (ix1 r) = Cert.Oim.refMax (rowLogits x0 x3 x4 x5 r) := by
  rw [val_main_call0_v2_apply, val_main_call0_v1_apply, val_main_call0_cst_0_apply]
  unfold val_main_call0_v0
  rw [Host.reduce_eq_fold_single (FloatOps.maximumf (F := Ideal) (φ := .f32)) _ _ reducesTo_S8192x10532_S8192_d1
    reduces_rows h_S_ (ix1 r), val_main_call0_cst_apply]
  have hrow : (val_main_v7 (F := Ideal) x0 x3 x4 x5 ∘ reduces_rows.lift (ix1 r)) = rowLogits x0 x3 x4 x5 r :=
    funext fun k => (congrArg (val_main_v7 (F := Ideal) x0 x3 x4 x5) (lift_eq r k)).trans (logit_apply x0 x3 x4 x5 r k)
  rw [hrow, Ideal.ofBits_def, neg_inf]
  rfl

/-! ## The log-softmax -/

theorem maxidx_eq (r : Fin 8192) (l : Fin 10532) : idx_main_call0_v3 (idx_main_call0_v4 (ix2 r l)) = ix1 r :=
  funext fun a => Fin.ext (by match a with | ⟨0, _⟩ => rfl)

theorem sumidx_eq (r : Fin 8192) (l : Fin 10532) : idx_main_call0_v8 (idx_main_call0_v10 (ix2 r l)) = ix1 r :=
  funext fun a => Fin.ext (by match a with | ⟨0, _⟩ => rfl)

theorem expidx_eq (r : Fin 8192) (k : Fin 10532) : idx_main_call0_v7 (ix1 r) k = ix2 r k :=
  funext fun a => Fin.ext (by match a with | ⟨0, _⟩ => rfl | ⟨1, _⟩ => rfl)

/-- The shifted logit: the logit minus the row's maximum, broadcast along the row. -/
theorem shifted_apply (r : Fin 8192) (l : Fin 10532) :
    val_main_call0_v5 (F := Ideal) x0 x3 x4 x5 (ix2 r l)
      = rowLogits x0 x3 x4 x5 r l - Cert.Oim.refMax (rowLogits x0 x3 x4 x5 r) := by
  rw [val_main_call0_v5_apply, val_main_call0_v4_apply, val_main_call0_v3_apply, maxidx_eq, max_apply, logit_apply]
  rfl

/-- The log-softmax of row r at class l: the shifted logit minus the log of the sum of the shifted exponentials. -/
theorem logp_apply (r : Fin 8192) (l : Fin 10532) :
    val_main_v8 (F := Ideal) x0 x3 x4 x5 (ix2 r l) = Cert.Oim.refLogp (rowLogits x0 x3 x4 x5 r) l := by
  rw [val_main_v8_apply, val_main_call0_v10_apply, val_main_call0_v9_apply, val_main_call0_v8_apply, sumidx_eq,
    val_main_call0_v7_apply, val_main_call0_cst_1_apply, shifted_apply]
  have hk : ∀ k : Fin 10532, val_main_call0_v6 (F := Ideal) x0 x3 x4 x5 (idx_main_call0_v7 (ix1 r) k)
      = Ideal.exp (rowLogits x0 x3 x4 x5 r k - Cert.Oim.refMax (rowLogits x0 x3 x4 x5 r)) := fun k => by
    rw [val_main_call0_v6_apply, expidx_eq, shifted_apply]; rfl
  rw [Finset.sum_congr rfl fun k _ => hk k, Ideal.ofBits_def, Ideal.ofBits_zero_f32]
  rfl

/-! ## The label's column -/

theorem safeidx_eq (r : Fin 8192) (c : Fin 1) : idx_main_v12 (ix2 r c) = ix1 r :=
  funext fun a => Fin.ext (by match a with | ⟨0, _⟩ => rfl)

/-- The safe label of row r, broadcast to a column. -/
theorem safe_apply (r : Fin 8192) (c : Fin 1) :
    val_main_v12 (F := Ideal) x1 (ix2 r c) = Cert.Oim.safeLab (x1 (ix1 r)) := by
  rw [val_main_v12_apply, safeidx_eq, val_main_v11_apply, val_main_v10_apply, val_main_v9_apply, val_main_c_apply,
    val_main_call1_v1_apply, val_main_call1_v0_apply, val_main_c_0_apply]
  rfl

/-- A word below 10532 read signed is its unsigned value. -/
theorem toInt_small (s : BitVec 32) (hs : s.toNat < 10532) : s.toInt = (s.toNat : Int) :=
  BitVec.toInt_eq_toNat_of_lt (by omega)

/-- A word below 10532 is not negative read signed. -/
theorem not_neg (s : BitVec 32) (hs : s.toNat < 10532) : IntOp.cmpi .slt s 0#32 = 0#1 := by
  refine eq_zero_of_ne_one fun h => ?_
  have h' := IntOp.cmpi_slt.mp h
  rw [toInt_small s hs, show (0#32 : BitVec 32).toInt = 0 from by decide] at h'
  omega

theorem ge_zero (s : BitVec 32) (hs : s.toNat < 10532) : IntOp.cmpi .sge s 0#32 = 1#1 := by
  rw [IntOp.cmpi_sge, toInt_small s hs, show (0#32 : BitVec 32).toInt = 0 from by decide]
  omega

theorem le_last (s : BitVec 32) (hs : s.toNat < 10532) : IntOp.cmpi .sle s 10531#32 = 1#1 := by
  rw [IntOp.cmpi_sle, toInt_small s hs, show (10531#32 : BitVec 32).toInt = 10531 from by decide]
  omega

/-- The start index of row r: a negative index would be wrapped by adding 10532; a word below 10532 is none. -/
theorem start_apply (r : Fin 8192) (c : Fin 1) (hs : (Cert.Oim.safeLab (x1 (ix1 r))).toNat < 10532) :
    val_main_call2_v4 (F := Ideal) x1 (ix2 r c) = Cert.Oim.safeLab (x1 (ix1 r)) := by
  rw [val_main_call2_v4_apply, val_main_call2_v1_apply, val_main_call2_v0_apply, val_main_call2_c_apply, safe_apply,
    not_neg _ hs, select_zero]

theorem castidx_eq (r : Fin 8192) : idx_main_call2_v5 (ix3 r (0 : Fin 1) (0 : Fin 1)) = ix2 r (0 : Fin 1) :=
  funext fun a => Fin.ext (by
    match a with
    | ⟨0, _⟩ => show ((r.val * 1 + 0) * 1 + 0) / 1 = r.val; omega
    | ⟨1, _⟩ => rfl)

/-- The start indices as the gather takes them, [8192, 1, 1]: row r's is its safe label. -/
theorem startvec_apply (r : Fin 8192) (hs : (Cert.Oim.safeLab (x1 (ix1 r))).toNat < 10532) :
    val_main_call2_v5 (F := Ideal) x1 (ix3 r (0 : Fin 1) (0 : Fin 1)) = Cert.Oim.safeLab (x1 (ix1 r)) := by
  rw [val_main_call2_v5_apply, castidx_eq, start_apply x1 r 0 hs]

/-! ## The in-bounds flag -/

/-- A fold over the one coordinate of a size-1 axis is one application of the operation. -/
theorem fold_fin1 {α : Type} (op : α → α → α) [Std.Commutative op] [Std.Associative op] (b : α) (f : Fin 1 → α) :
    (Finset.univ : Finset (Fin 1)).fold op b f = op (f 0) b := by
  rw [show (Finset.univ : Finset (Fin 1)) = {0} from rfl, Finset.fold_singleton]

/-- Dropping the last axis of a [8192, 1, 1] array. -/
theorem reduces_unit : S8192x1x1.Reduces [2] S8192x1 := by decide

theorem unitlift_eq (r : Fin 8192) :
    reduces_unit.lift (ix2 r (0 : Fin 1)) (0 : Fin 1) = ix3 r (0 : Fin 1) (0 : Fin 1) :=
  funext fun a => Fin.ext (by match a with | ⟨0, _⟩ => rfl | ⟨1, _⟩ => rfl | ⟨2, _⟩ => rfl)

/-- The flag of row r: its start index is at least 0 and at most 10531, so the conjunction over the one
    component of the index vector, from true, is true. -/
theorem inbounds_apply (r : Fin 8192) (hs : (Cert.Oim.safeLab (x1 (ix1 r))).toNat < 10532) :
    val_main_call2_v12 (F := Ideal) x1 (ix2 r (0 : Fin 1)) = 1#1 := by
  unfold val_main_call2_v12
  rw [Host.reduce_eq_fold_single IntOp.andi _ _ reducesTo_S8192x1x1_S8192x1_d2 reduces_unit h_S_ (ix2 r (0 : Fin 1))]
  refine (fold_fin1 IntOp.andi _ _).trans ?_
  show IntOp.andi (val_main_call2_v11 (F := Ideal) x1 (reduces_unit.lift (ix2 r (0 : Fin 1)) (0 : Fin 1)))
    (val_main_call2_c_3 (F := Ideal) _) = 1#1
  rw [unitlift_eq, val_main_call2_v11_apply, val_main_call2_v7_apply, val_main_call2_v10_apply, startvec_apply x1 r hs,
    val_main_call2_v6_apply, val_main_call2_c_2_apply, val_main_call2_v9_apply, val_main_call2_v8_apply,
    val_main_call2_c_1_apply, val_main_call2_c_3_apply, ge_zero _ hs, le_last _ hs]
  decide

/-! ## The gather -/

/-- The gather's dimension numbers: the operand's axis 0 is batched with the start indices' axis 0, the
    operand's axis 1 is collapsed and indexed by the one component of the start index. -/
abbrev labelGather : GatherDims S8192x10532 S8192x1x1 S8192x1 := gather_S8192x10532_S8192x1x1_S8192x1_n_1_0_0_1_2_11

/-- On the batched axis the operand index of result (r, 0) is r: no start, no offset, the batch coordinate r. -/
theorem gather_axis0 (r : Fin 8192) (idx : IVec S8192x1x1 32) :
    labelGather.start (ix2 r (0 : Fin 1)) idx 0 + labelGather.batchCoord (ix2 r (0 : Fin 1)) 0
      + labelGather.offCoord (ix2 r (0 : Fin 1)) 0 = r.val := by
  rw [GatherDims.start_batching _ _ _ _ (show (0 : Fin S8192x10532.rank) ∈ labelGather.operandBatchingDims from
      List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin S8192x10532.rank) ∈ labelGather.operandBatchingDims from List.mem_singleton.mpr rfl)]
  rfl

/-- On the collapsed axis the operand index of result (r, 0) is the start index of row r, read signed and clamped
    into [0, 10531]: no batch coordinate, no offset. -/
theorem gather_axis1 (r : Fin 8192) (idx : IVec S8192x1x1 32) :
    labelGather.start (ix2 r (0 : Fin 1)) idx 1 + labelGather.batchCoord (ix2 r (0 : Fin 1)) 1
      + labelGather.offCoord (ix2 r (0 : Fin 1)) 1 = min (idx (ix3 r (0 : Fin 1) (0 : Fin 1))).toInt.toNat 10531 := by
  rw [GatherDims.batchCoord_eq_zero _ _ _ (show (1 : Fin S8192x10532.rank) ∉ labelGather.operandBatchingDims by decide),
    GatherDims.offCoord_eq_zero _ _ _ (fun h => ((GatherDims.mem_sKept _ _).mp h).1 (List.mem_singleton.mpr rfl))]
  simp only [Nat.add_zero]
  unfold GatherDims.start
  rw [dif_pos (show (1 : Fin S8192x10532.rank) ∈ labelGather.startIndexMap from List.mem_singleton.mpr rfl)]
  have hsi : labelGather.siIdx (ix2 r (0 : Fin 1)) ⟨List.idxOf (1 : Fin S8192x10532.rank) labelGather.startIndexMap,
      List.idxOf_lt_length_iff.2 (List.mem_singleton.mpr rfl)⟩ = ix3 r (0 : Fin 1) (0 : Fin 1) := by
    funext b; refine Fin.ext ?_
    match b with
    | ⟨0, _⟩ => rfl
    | ⟨1, _⟩ => rfl
    | ⟨2, _⟩ => rfl
  rw [hsi]
  rfl

/-- The gather at (r, 0), for a start index below 10532: the operand at (r, start index). -/
theorem gather_row (y : S8192x10532.Idx → EReal) (idx : IVec S8192x1x1 32) (r : Fin 8192)
    (hs : (idx (ix3 r (0 : Fin 1) (0 : Fin 1))).toNat < 10532) :
    Host.gather labelGather y idx (ix2 r (0 : Fin 1)) = y (ix2 r ⟨(idx (ix3 r (0 : Fin 1) (0 : Fin 1))).toNat, hs⟩) := by
  unfold Host.gather
  refine congrArg y (funext fun a => Fin.ext ?_)
  match a with
  | ⟨0, _⟩ => exact gather_axis0 r idx
  | ⟨1, _⟩ =>
    refine (gather_axis1 r idx).trans ?_
    show min (idx (ix3 r (0 : Fin 1) (0 : Fin 1))).toInt.toNat 10531 = (idx (ix3 r (0 : Fin 1) (0 : Fin 1))).toNat
    rw [toInt_small _ hs, Int.toNat_natCast]
    omega

/-! ## The row's summand -/

theorem colidx_eq (r : Fin 8192) : idx_main_v14 (ix1 r) = ix2 r (0 : Fin 1) :=
  funext fun a => Fin.ext (by
    match a with
    | ⟨0, _⟩ => show r.val / 1 = r.val; omega
    | ⟨1, _⟩ => rfl)

/-- The value take_along_axis returns for row r: in bounds, hence the gathered log-softmax at the safe label. -/
theorem taken_apply (r : Fin 8192) (hs : (Cert.Oim.safeLab (x1 (ix1 r))).toNat < 10532) :
    val_main_v13 (F := Ideal) x0 x1 x3 x4 x5 (ix2 r (0 : Fin 1))
      = Cert.Oim.refLogp (rowLogits x0 x3 x4 x5 r) ⟨(Cert.Oim.safeLab (x1 (ix1 r))).toNat, hs⟩ := by
  rw [val_main_v13_apply, inbounds_apply x1 r hs, select_one]
  unfold val_main_call2_v13
  have hv := startvec_apply x1 r hs
  refine (gather_row (val_main_v8 (F := Ideal) x0 x3 x4 x5) (val_main_call2_v5 (F := Ideal) x1) r (by rw [hv]; exact hs)).trans ?_
  refine (logp_apply x0 x3 x4 x5 r _).trans ?_
  exact congrArg (Cert.Oim.refLogp (rowLogits x0 x3 x4 x5 r)) (Fin.ext (congrArg BitVec.toNat hv))

/-- Row r's summand: minus the log-softmax of the row's logits at the safe label where the label is valid, else zero. -/
theorem v19_apply (r : Fin 8192) (hlab : (x1 (ix1 r)).toNat < 10532) (hs : (Cert.Oim.safeLab (x1 (ix1 r))).toNat < 10532) :
    val_main_v19 (F := Ideal) x0 x1 x3 x4 x5 (ix1 r)
      = Cert.Oim.refA (fun l => Cert.Oim.refLogit (fun d => x0 (ix2 r d)) (fun l' d' => val_main_v0 (F := Ideal) x3 x4 (ix2 l' d')) (fun l' => x5 (ix1 l')) l) (x1 (ix1 r)) hs := by
  rw [val_main_v19_apply, val_main_v10_apply, val_main_v9_apply, val_main_c_apply, val_main_v15_apply, val_main_v14_apply,
    colidx_eq, taken_apply x0 x1 x3 x4 x5 r hs, val_main_call3_v1_apply, val_main_call3_v0_apply, val_main_cst_3_apply,
    Ideal.ofBits_def, Ideal.ofBits_zero_f32]
  rfl

end Cert.ReferenceIdeal.Row

end
-- ==== Proof.Assembly.lean ====
/-
  The OIM loss: a Pallas kernel that tiles the 10532 classes (padded to 11264 = 8 x 1408 columns) inside its body
  against jnp's log-softmax reference, as one number over the extended reals.

  Per query row both programs compute  log (∑ over the 10532 classes of exp (logit)) − logit at the label,
  times the validity of the label (label ≠ 5554), and the program's result is the sum of those over the 8192 rows
  divided by max (number of valid rows, 1).
  The kernel gets there with the reliabilities and the factor 30 folded into a transposed bank, zero rows for the 732
  padding classes whose columns the last tile sends to -∞ (the constant the certificate names "neg_big": it only ever
  feeds exp, where it contributes exp (-∞) = 0), no maximum subtracted, and the label's logit picked by a one-hot
  comparison in each tile; the reference subtracts the row maximum before exponentiating and gathers the label's entry.
  Over the reals the two agree: a common factor leaves a finite sum (which needs every input finite), the shift by the
  maximum M cancels (log (e^{-M} · S) = -M + log S), and a label that is a class index 0 … 10531 meets exactly one
  column of one tile.

  This module joins the pieces: the kernel's result from its frame run (the blocks of the result array, the host
  operations before and after the region), the reference's result from its run read stage by stage, the precondition
  read element by element, and the row identity.
-/
import proofs.«418249_j13116830122679_3_alg».proof.Defs
import proofs.«418249_j13116830122679_3_alg».proof.Proof.Gen.Kernel.Frame
import proofs.«418249_j13116830122679_3_alg».proof.Proof.Gen.KernelIdeal.Frame
import proofs.«418249_j13116830122679_3_alg».proof.Proof.Gen.ReferenceIdeal
import proofs.«418249_j13116830122679_3_alg».proof.Proof.Gen.Pre_finite_inputs
import proofs.«418249_j13116830122679_3_alg».proof.Proof.Spec
import proofs.«418249_j13116830122679_3_alg».proof.Proof.RefRead
import proofs.«418249_j13116830122679_3_alg».proof.Proof.RefRun
import proofs.«418249_j13116830122679_3_alg».proof.Proof.PreDecode
import proofs.«418249_j13116830122679_3_alg».proof.Proof.Payload
import proofs.«418249_j13116830122679_3_alg».proof.Proof.Blocks
import proofs.«418249_j13116830122679_3_alg».proof.Proof.HostPre
import proofs.«418249_j13116830122679_3_alg».proof.Proof.HostTail
import proofs.«418249_j13116830122679_3_alg».proof.Proof.Algebra
import proofs.«418249_j13116830122679_3_alg».proof.Proof.RefRow
import Idealize.ShloMosaic.Lib.ValueIdx
import Idealize.ShloMosaic.Lib.Pipeline.Value
import Idealize.ShloMosaic.PureOps.IdealRules

noncomputable section

open Idealize.ShloMosaic Idealize.ShloMosaic.TcCoe Idealize.SL.Sem Idealize.ShloMosaic.ValueIdx

namespace Cert.Proof.Oim

section Kernel
open Cert.KernelIdeal
variable (m : (ℓ : Loc nD τ sig) → Buf (Elt Ideal) ℓ) (ρ : Dev nD → PrngReg)

/-- What the kernel's program leaves in its result buffer. -/
def kres (c : Dev nD) : Buf (Elt Ideal) ((c.tc : Thread nD τ).loc main_v18) :=
  Pipeline.afterTail₀ cfgs (Gen.dats (F := Ideal) m) 0 (Gen.V0 m) [Gen.hostOps1] c main_v18

theorem kernel_run : θ_run (defs (F := Ideal)) (onTc (τ := τ) (main (F := Ideal))) ⟨m, fun _ => 0, ρ⟩ (fun r => ∀ c : Dev nD,
      r.2.mem ((c.tc : Thread nD τ).loc main_v18) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v18 (Pipeline.mem_restRefs_of main_v18 (by decide) (by decide)),
      ((h c).1 0).trans (((Gen.dats m 0 c).arrAt_in 0 rfl _).trans ((Gen.A_eq m c 0).trans (Gen.V_main_arg0 m c))),
      (((h c).2 main_arg1 (Pipeline.mem_restRefs_of main_arg1 (by decide) (by decide))).trans (Gen.W_main_arg1 m (Gen.dats m) c)),
      (((h c).2 main_arg2 (Pipeline.mem_restRefs_of main_arg2 (by decide) (by decide))).trans (Gen.W_main_arg2 m (Gen.dats m) c)),
      (((h c).2 main_arg3 (Pipeline.mem_restRefs_of main_arg3 (by decide) (by decide))).trans (Gen.W_main_arg3 m (Gen.dats m) c)),
      (((h c).2 main_arg4 (Pipeline.mem_restRefs_of main_arg4 (by decide) (by decide))).trans (Gen.W_main_arg4 m (Gen.dats m) c)),
      (((h c).2 main_arg5 (Pipeline.mem_restRefs_of main_arg5 (by decide) (by decide))).trans (Gen.W_main_arg5 m (Gen.dats m) c))⟩) (Gen.run_main m ρ)

/-- Row r's query features, the class bank with its reliabilities, and row r's label, as the kernel's program is launched. -/
abbrev qrow (c : Dev nD) (r : Fin 8192) : Fin 256 → EReal := fun d => m ((c : Thread nD τ).loc main_arg0) (ix2 r d)
abbrev bnk (c : Dev nD) : Fin 10532 → Fin 256 → EReal := fun l d => HostPre.bank m c (ix2 l d)
abbrev rel (c : Dev nD) : Fin 10532 → EReal := fun l => m ((c : Thread nD τ).loc main_arg5) (ix1 l)
abbrev lab (c : Dev nD) (r : Fin 8192) : BitVec 32 := m ((c : Thread nD τ).loc main_arg1) (ix1 r)

/-- The kernel's result array at row r: the row function of the launch contents. -/
theorem G_row (c : Dev nD) (r : Fin 8192) (k : Fin 2) :
    Arr.G (Gen.V m c main_arg0) (Gen.V m c main_v8) (Gen.V m c main_v9) (ix2 r k)
      = Cert.Oim.rowOut (qrow m c r) (Cert.Oim.bankT (bnk m c) (rel m c)) (lab m c r) k := by
  rw [Arr.G_apply]
  have e0 : (fun d => Gen.V m c main_arg0 (ix2 r d)) = qrow m c r := by
    funext d; rw [Gen.V_main_arg0]
  have e1 : (fun d l => Gen.V m c main_v8 (ix2 d l)) = Cert.Oim.bankT (bnk m c) (rel m c) := by
    funext d l; exact HostPre.V_bankT m c d l
  have e2 : Gen.V m c main_v9 (ix2 r (0 : Fin 1)) = lab m c r := HostPre.V_label m c r
  rw [e0, e1, e2]

/-- The kernel's result: the quotient of the two row sums of the row function. -/
theorem kres_eq (c : Dev nD) :
    kres m c = fun _ => Ideal.div (Ideal.ofBits .f32 0x00000000#32 + ∑ r : Fin 8192, Cert.Oim.rowOut (qrow m c r) (Cert.Oim.bankT (bnk m c) (rel m c)) (lab m c r) (0 : Fin 2))
          (max (Ideal.ofBits .f32 0x00000000#32 + ∑ r : Fin 8192, Cert.Oim.rowOut (qrow m c r) (Cert.Oim.bankT (bnk m c) (rel m c)) (lab m c r) (1 : Fin 2)) (Ideal.ofBits .f32 0x3F800000#32)) := by
  unfold kres
  rw [Tail.result_of m c _ (Arr.final m Body.out_apply c)]
  have e0 : (∑ r : Fin 8192, Arr.G (Gen.V m c main_arg0) (Gen.V m c main_v8) (Gen.V m c main_v9) (ix2 r (0 : Fin 2)))
      = ∑ r : Fin 8192, Cert.Oim.rowOut (qrow m c r) (Cert.Oim.bankT (bnk m c) (rel m c)) (lab m c r) (0 : Fin 2) :=
    Finset.sum_congr rfl (fun r _ => G_row m c r 0)
  have e1 : (∑ r : Fin 8192, Arr.G (Gen.V m c main_arg0) (Gen.V m c main_v8) (Gen.V m c main_v9) (ix2 r (1 : Fin 2)))
      = ∑ r : Fin 8192, Cert.Oim.rowOut (qrow m c r) (Cert.Oim.bankT (bnk m c) (rel m c)) (lab m c r) (1 : Fin 2) :=
    Finset.sum_congr rfl (fun r _ => G_row m c r 1)
  rw [e0, e1]

end Kernel

/-! ## The two results are one number -/

section Agree
open Cert.KernelIdeal (nD τ)
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Under the precondition, from memories agreeing on the arguments, the reference's last stage is the kernel's result:
    row by row the reference's summand is the kernel's (the row identity, which needs every float finite and the label a class index),
    and the flags are the same comparison read two ways. -/
theorem results_agree (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.KernelIdeal.nD) :
    Cert.ReferenceIdeal.Read.val_main_v21 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
      = kres m c := by
  obtain ⟨a0, a1, a2, a3, a4, a5⟩ := hagree c
  rw [a0, a1, a3, a4, a5, Cert.ReferenceIdeal.Row.result_eq, kres_eq]
  obtain ⟨f0, f3, f4, f5, hl⟩ := Cert.Pre_finite_inputs.Decode.decode _ _ _ _ _ _ (hpre c)
  have hbank := Cert.KernelIdeal.HostPre.bank_real m c f3 f4
  have row0 : ∀ r : Fin 8192, Cert.ReferenceIdeal.Read.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (ix1 r)
      = Cert.Oim.rowOut (qrow m c r) (Cert.Oim.bankT (bnk m c) (rel m c)) (lab m c r) (0 : Fin 2) := by
    intro r
    have hr := hl (ix1 r)
    have hs := Cert.ReferenceIdeal.Row.safe_lt _ hr
    rw [Cert.ReferenceIdeal.Row.v19_apply _ _ _ _ _ r hr hs]
    show _ = (Cert.Oim.rowLse _ _ - Cert.Oim.rowTgt _ _ _) * Cert.Oim.validF _
    exact (Cert.Oim.row_eq (qrow m c r) (bnk m c) (rel m c) (lab m c r) (fun d => f0 _) (fun l d => hbank _) (fun l => f5 _) hr hs).symm
  have row1 : ∀ r : Fin 8192, Cert.ReferenceIdeal.Read.val_main_v16 (F := Ideal)
        (m ((c.tc : Thread Cert.KernelIdeal.nD Cert.KernelIdeal.τ).loc Cert.KernelIdeal.main_arg1)) (ix1 r)
      = Cert.Oim.rowOut (qrow m c r) (Cert.Oim.bankT (bnk m c) (rel m c)) (lab m c r) (1 : Fin 2) := by
    intro r
    rw [Cert.ReferenceIdeal.Row.v16_apply]
    show _ = Cert.Oim.validF _
    exact (Cert.Oim.validF_eq_refV _).symm
  rw [Finset.sum_congr rfl (fun r _ => row0 r), Finset.sum_congr rfl (fun r _ => row1 r)]
  rfl

end Agree

end Cert.Proof.Oim

/-! ## The claims -/

namespace Cert.Proof

open Idealize.ShloMosaic Idealize.SL.Sem

/-- The kernel as printed runs and keeps its arguments: its generated frame. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The one entry of the idealization's ledger: the padding fill, a finite stand-in, is named -∞. -/
theorem preserves : Cert.preserves_Kernel_KernelIdeal :=
  IdealRules.named_const.statement Cert.KernelIdeal.κ "neg_big" .f32 0xFF333332#32 ⊥ rfl

/-- At the extended reals both programs end with the same number: the kernel's result, which the reference's last stage equals. -/
theorem algebraic : Cert.algebraic_KernelIdeal_ReferenceIdeal := by
  intro m ρ m' ρ' hpre hagree
  refine ⟨fun c => Oim.kres m c, Oim.kernel_run m ρ, ?_⟩
  exact (θ_run Cert.ReferenceIdeal.defs _ _).mono
    (fun _ h c => ⟨(h c).1.trans (Oim.results_agree m m' hpre hagree c), (h c).2⟩)
    (Cert.ReferenceIdeal.Stages.run (F := Ideal) m' ρ')

end Cert.Proof

end
-- ==== Proof.lean ====
/-
  The certificate of the OIM loss kernel against its jnp reference: the three programs run and keep their arguments,
  the idealization names one constant (the padding fill is -∞), and at the extended reals, under the precondition
  (every float input finite, every label a class index), kernel and reference end with the same number.
  The mathematics and the joining of the pieces are in Proof/Assembly.lean.
-/
import proofs.«418249_j13116830122679_3_alg».proof.Defs
import proofs.«418249_j13116830122679_3_alg».proof.Proof.Gen.Kernel
import proofs.«418249_j13116830122679_3_alg».proof.Proof.Gen.KernelIdeal
import proofs.«418249_j13116830122679_3_alg».proof.Proof.Gen.ReferenceIdeal
import proofs.«418249_j13116830122679_3_alg».proof.Proof.Gen.Pre_finite_inputs
import proofs.«418249_j13116830122679_3_alg».proof.Proof.Assembly

noncomputable section

namespace Cert.Proof

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
